-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S100x32000 : Shape := ⟨2, ![100, 32000]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S100x32000 : S_.BroadcastsInDim S100x32000 (![] : Fin 0 → Fin S100x32000.rank)
  reducesTo_S100x32000_S_d0_1 : S100x32000.ReducesTo [0, 1] S_

variable [Facts]

def fn {F : FTy → Type} [FloatOps F] (main_arg0 : FVec F S8192x32000 .f32) (main_arg1 : IVec S8192 32) (main_arg2 : IVec S8192 32) (main_arg3 : FVec F S100x32000 .f32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_v4 : FVec F S100x32000 .f32 := Host.absf main_arg3
  let main_cst_0 : FVec F S_ .f32 := constant S_ .f32 0x7F800000#32
  let main_v5 : FVec F S100x32000 .f32 := broadcastInDim S100x32000 ![] bcast_S_S100x32000 main_cst_0
  let main_v6 : IVec S100x32000 1 := cmpf .olt main_v4 main_v5
  let main_c_1 : IVec S_ 1 := constantI S_ 1 1#1
  let main_v7 : IVec S_ 1 := (fun x v => Host.reduce IntOp.andi x v reducesTo_S100x32000_S_d0_1 h_S_) main_v6 main_c_1
  let main_v8 : IVec S_ 1 := andi main_v3 main_v7
  main_v8
-- ==== Kernel.lean ====
abbrev S8192x32000 : Shape := ⟨2, ![8192, 32000]⟩
abbrev S8192 : Shape := ⟨1, ![8192]⟩
abbrev S100x32000 : Shape := ⟨2, ![100, 32000]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S8192x2 : Shape := ⟨2, ![8192, 2]⟩
abbrev S512x6400 : Shape := ⟨2, ![512, 6400]⟩
abbrev S512x1 : Shape := ⟨2, ![512, 1]⟩
abbrev S512 : Shape := ⟨1, ![512]⟩

abbrev nBuf : Space → Nat
  | .hbm => 54
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .i32⟩
  | .hbm, ⟨3, _⟩ => ⟨S100x32000, .f32⟩
  | .hbm, ⟨4, _⟩ => ⟨S8192x1, .f32⟩
  | .hbm, ⟨5, _⟩ => ⟨S8192, .f32⟩
  | .hbm, ⟨6, _⟩ => ⟨S8192x1, .i32⟩
  | .hbm, ⟨7, _⟩ => ⟨S_, .i32⟩
  | .hbm, ⟨8, _⟩ => ⟨S8192x1, .i32⟩
  | .hbm, ⟨9, _⟩ => ⟨S8192x1, .i1⟩
  | .hbm, ⟨10, _⟩ => ⟨S_, .i32⟩
  | .hbm, ⟨11, _⟩ => ⟨S8192x1, .i32⟩
  | .hbm, ⟨12, _⟩ => ⟨S8192x1, .i32⟩
  | .hbm, ⟨13, _⟩ => ⟨S8192x1, .i32⟩
  | .hbm, ⟨14, _⟩ => ⟨S8192x1x1, .i32⟩
  | .hbm, ⟨15, _⟩ => ⟨S1, .i32⟩
  | .hbm, ⟨16, _⟩ => ⟨S_, .i32⟩
  | .hbm, ⟨17, _⟩ => ⟨S8192x1x1, .i32⟩
  | .hbm, ⟨18, _⟩ => ⟨S8192x1x1, .i1⟩
  | .hbm, ⟨19, _⟩ => ⟨S1x1x1, .i32⟩
  | .hbm, ⟨20, _⟩ => ⟨S8192x1x1, .i32⟩
  | .hbm, ⟨21, _⟩ => ⟨S8192x1x1, .i1⟩
  | .hbm, ⟨22, _⟩ => ⟨S8192x1x1, .i1⟩
  | .hbm, ⟨23, _⟩ => ⟨S_, .i1⟩
  | .hbm, ⟨24, _⟩ => ⟨S8192x1, .i1⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192, .f32⟩
  | .hbm, ⟨30, _⟩ => ⟨S8192, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S512x6400, .f32⟩
  | .local _ .vmem, ⟨1, _⟩ => ⟨S512x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_c_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_c_1 : Ref sig .tc := ⟨.hbm, 15, rfl⟩
abbrev main_call0_call0_c_2 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_c_3 : Ref sig .tc := ⟨.hbm, 23, rfl⟩
abbrev main_call0_call0_v12 : Ref sig .tc := ⟨.hbm, 24, rfl⟩
abbrev main_call0_call0_v13 : Ref sig .tc := ⟨.hbm, 25, rfl⟩
abbrev main_call0_call0_cst : Ref sig .tc := ⟨.hbm, 26, rfl⟩
abbrev main_call0_call0_v14 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c : Ref sig .tc := ⟨.hbm, 31, rfl⟩
abbrev main_call0_v6 : Ref sig .tc := ⟨.hbm, 32, rfl⟩
abbrev main_call0_v7 : Ref sig .tc := ⟨.hbm, 33, rfl⟩
abbrev main_call0_c_0 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_1 : Ref sig .tc := ⟨.hbm, 38, rfl⟩
abbrev main_call0_v11 : Ref sig .tc := ⟨.hbm, 39, rfl⟩
abbrev main_call0_v12 : Ref sig .tc := ⟨.hbm, 40, rfl⟩
abbrev main_call0_c_2 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_call0_v17 : Ref sig .tc := ⟨.hbm, 46, rfl⟩
abbrev main_call0_v18 : Ref sig .tc := ⟨.hbm, 47, rfl⟩
abbrev main_call0_v19 : Ref sig .tc := ⟨.hbm, 48, rfl⟩
abbrev main_call0_v20 : Ref sig .tc := ⟨.hbm, 49, rfl⟩
abbrev main_call0_cst : Ref sig .tc := ⟨.hbm, 50, rfl⟩
abbrev main_call0_v21 : Ref sig .tc := ⟨.hbm, 51, rfl⟩
abbrev main_call0_cst_3 : Ref sig .tc := ⟨.hbm, 52, rfl⟩
abbrev main_v0 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S8192x1_S8192 : S8192x1.ShapeCasts S8192
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  bcast_S_S8192 : S_.BroadcastsInDim S8192 (![] : Fin 0 → Fin S8192.rank)
  concatenates_S8192x1_S8192x1_S8192x2_d1 : Shape.Concatenates [S8192x1, S8192x1] S8192x2 1
  reducesTo_S8192_S_d0 : S8192.ReducesTo [0] S_
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x6400_0_0 : ∀ a, (![0, 0] : Fin 2 → Nat) a + S512x6400.size a ≤ S512x6400.size a
  h_S512x6400 : 0 < S512x6400.numel
  reduces_S512x6400_S512 : S512x6400.Reduces [1] S512
  shapeCasts_S512_S512x1 : S512.ShapeCasts S512x1
  broadcasts_S512x1_S512x6400 : S512x1.Broadcasts S512x6400
  gather_S8192x32000_S8192x1x1_S8192x1_n_1_0_0_1_2_11_wf : GatherDims.WF S8192x32000 S8192x1x1 S8192x1 [] [1] [0] [1] [0] 2 ![1, 1]
  gather_S100x32000_S8192x2_S8192_n_01_n_n_01_1_11_wf : GatherDims.WF S100x32000 S8192x2 S8192 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S8192x32000.size a
  hwx0_0 : ∀ i : grid0.Coords, EltTy.bits .f32 = 32 ∨ (Rect.block (s := S8192x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def gather_S100x32000_S8192x2_S8192_n_01_n_n_01_1_11 : GatherDims S100x32000 S8192x2 S8192 where
  offsetDims := []
  collapsedSliceDims := [0, 1]
  operandBatchingDims := []
  startIndicesBatchingDims := []
  startIndexMap := [0, 1]
  indexVectorDim := 1
  sliceSizes := ![1, 1]
  wf := gather_S100x32000_S8192x2_S8192_n_01_n_n_01_1_11_wf

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S100x32000 : Shape := ⟨2, ![100, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x2 : Shape := ⟨2, ![8192, 2]⟩

abbrev nBuf : Space → Nat
  | .hbm => 67
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192, .i32⟩
  | .hbm, ⟨3, _⟩ => ⟨S100x32000, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S8192x1x1, .i32⟩
  | .hbm, ⟨28, _⟩ => ⟨S1, .i32⟩
  | .hbm, ⟨29, _⟩ => ⟨S_, .i32⟩
  | .hbm, ⟨30, _⟩ => ⟨S8192x1x1, .i32⟩
  | .hbm, ⟨31, _⟩ => ⟨S8192x1x1, .i1⟩
  | .hbm, ⟨32, _⟩ => ⟨S1x1x1, .i32⟩
  | .hbm, ⟨33, _⟩ => ⟨S8192x1x1, .i32⟩
  | .hbm, ⟨34, _⟩ => ⟨S8192x1x1, .i1⟩
  | .hbm, ⟨35, _⟩ => ⟨S8192x1x1, .i1⟩
  | .hbm, ⟨36, _⟩ => ⟨S_, .i1⟩
  | .hbm, ⟨37, _⟩ => ⟨S8192x1, .i1⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192, .f32⟩
  | .hbm, ⟨43, _⟩ => ⟨S8192, .f32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x1, .i32⟩
  | .hbm, ⟨60, _⟩ => ⟨S8192x2, .i32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_v5 : Ref sig .tc := ⟨.hbm, 45, rfl⟩
abbrev main_v6 : Ref sig .tc := ⟨.hbm, 46, rfl⟩
abbrev main_c_0 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_c_1 : Ref sig .tc := ⟨.hbm, 51, rfl⟩
abbrev main_v10 : Ref sig .tc := ⟨.hbm, 52, rfl⟩
abbrev main_v11 : Ref sig .tc := ⟨.hbm, 53, rfl⟩
abbrev main_c_2 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst : Ref sig .tc := ⟨.hbm, 63, rfl⟩
abbrev main_v20 : Ref sig .tc := ⟨.hbm, 64, rfl⟩
abbrev main_cst_3 : Ref sig .tc := ⟨.hbm, 65, rfl⟩
abbrev main_v21 : Ref sig .tc := ⟨.hbm, 66, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  concatenates_S8192x1_S8192x1_S8192x2_d1 : Shape.Concatenates [S8192x1, S8192x1] S8192x2 1
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]
  gather_S100x32000_S8192x2_S8192_n_01_n_n_01_1_11_wf : GatherDims.WF S100x32000 S8192x2 S8192 [] [0, 1] [] [0, 1] [] 1 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf
def gather_S100x32000_S8192x2_S8192_n_01_n_n_01_1_11 : GatherDims S100x32000 S8192x2 S8192 where
  offsetDims := []
  collapsedSliceDims := [0, 1]
  operandBatchingDims := []
  startIndicesBatchingDims := []
  startIndexMap := [0, 1]
  indexVectorDim := 1
  sliceSizes := ![1, 1]
  wf := gather_S100x32000_S8192x2_S8192_n_01_n_n_01_1_11_wf

class Facts : Prop extends Facts₀ where

variable [Facts]
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Finite.lean ====
/-
  The precondition read back: every logit is a real.

  The printed precondition is the conjunction of two tests, one per float input: "every entry has absolute value
  below +∞", each an and-reduce to a scalar. Its first conjunct, about the logits, says that each entry is neither
  +∞ nor -∞, that is, a real.
-/
import proofs.«406159_j25486335934803_3_alg».proof.Pre_finite_inputs
import proofs.«406159_j25486335934803_3_alg».proof.Proof.Gen.Pre_finite_inputs
import proofs.«406159_j25486335934803_3_alg».proof.Proof.LibReal
import Idealize.ShloMosaic.Lib.Affine

noncomputable section

namespace Cert.Finite

open Idealize.ShloMosaic Idealize.ShloMosaic.ValueIdx Cert.LibReal Cert.Pre_finite_inputs

/-- Under the precondition every entry of the logits is a real. -/
theorem logits_real (x0 : FVec Ideal S8192x32000 .f32) (x1 x2 : IVec S8192 32) (x3 : FVec Ideal S100x32000 .f32)
    (h : Cert.Pre_finite_inputs.fn (F := Ideal) x0 x1 x2 x3 = fun _ => 1#1) (p : S8192x32000.Idx) :
    ∃ r : ℝ, x0 p = (r : EReal) := by
  have h0 := congrFun h ix0
  unfold Cert.Pre_finite_inputs.fn at h0
  dsimp only at h0
  have h3 := (IntOp.andi_eq_one.mp h0).1
  exact isReal_of_all x0 _ _ _ h3 p

end Cert.Finite

end
-- ==== Proof.KernelPieces.lean ====
import proofs.«406159_j25486335934803_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LseValue

open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-! ## What each control case leaves in the two carried buffers and in the output block

  The body keeps a shift in one buffer and a sum of shifted exponentials in the other. At a row block's first vocabulary
  tile it first resets them (the shift to a large negative number, the sum to zero) and then updates them from the
  reset values; at a later tile it updates them from what the tile before left; at the last tile it also writes
  shift + log sum into the output block, reading back the two values it has just stored. -/

/-- A middle tile: the shift becomes the old shift against the tile's maximum. -/
theorem shift_B (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x : Vec F S512x6400 .f32) (xs0 xs1 : Vec F S512x1 .f32) :
    sout0_B_0 c i a2 h2 a3 h3 a4 h4 a5 h5 hc0 hc1 x xs0 xs1 = k0_pay5 x xs0 := by
  unfold sout0_B_0
  rw [View.read_writes_eq_canon _ _ _ (scover0_B_0 c i a2 h2 a3 h3 a4 h4 a5 h5 hc0 hc1 x xs0 xs1)]
  unfold kernelRun0_B
  dsimp only
  sl_unfold_words
  rw [View.canon_unit_zero hz]
  simp only [View.readAt_eq_ld, h2.read_unread, h4.read_unread, h5.read_unread, View.ld_unit_zero (S := S512x6400) hz,
    View.ld_unit_zero (S := S512x1) hz]

/-- A middle tile: the sum is rescaled to the new shift and the tile's shifted exponentials are added. -/
theorem sum_B (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x : Vec F S512x6400 .f32) (xs0 xs1 : Vec F S512x1 .f32) :
    sout0_B_1 c i a2 h2 a3 h3 a4 h4 a5 h5 hc0 hc1 x xs0 xs1 = k0_pay4 x xs0 xs0 xs1 := by
  unfold sout0_B_1
  rw [View.read_writes_eq_canon _ _ _ (scover0_B_1 c i a2 h2 a3 h3 a4 h4 a5 h5 hc0 hc1 x xs0 xs1)]
  unfold kernelRun0_B
  dsimp only
  sl_unfold_words
  rw [View.canon_unit_zero hz]
  simp only [View.readAt_eq_ld, h2.read_unread, h4.read_unread, h5.read_unread, View.ld_unit_zero (S := S512x6400) hz,
    View.ld_unit_zero (S := S512x1) hz]

/-- The last tile updates the shift as a middle tile does. -/
theorem shift_C (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x6400 .f32) (xs0 xs1 : Vec F S512x1 .f32) :
    sout0_C_0 c i a2 h2 a3 h3 a4 h4 a5 h5 hc0 hc1 x xs0 xs1 = k0_pay5 x xs0 := by
  unfold sout0_C_0
  rw [View.read_writes_eq_canon _ _ _ (scover0_C_0 c i a2 h2 a3 h3 a4 h4 a5 h5 hc0 hc1 x xs0 xs1)]
  unfold kernelRun0_C
  dsimp only
  sl_unfold_words
  rw [View.canon_unit_zero hz]
  simp only [View.readAt_eq_ld, h2.read_unread, h4.read_unread, h5.read_unread, View.ld_unit_zero (S := S512x6400) hz,
    View.ld_unit_zero (S := S512x1) hz]

/-- The last tile updates the sum as a middle tile does. -/
theorem sum_C (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x6400 .f32) (xs0 xs1 : Vec F S512x1 .f32) :
    sout0_C_1 c i a2 h2 a3 h3 a4 h4 a5 h5 hc0 hc1 x xs0 xs1 = k0_pay4 x xs0 xs0 xs1 := by
  unfold sout0_C_1
  rw [View.read_writes_eq_canon _ _ _ (scover0_C_1 c i a2 h2 a3 h3 a4 h4 a5 h5 hc0 hc1 x xs0 xs1)]
  unfold kernelRun0_C
  dsimp only
  sl_unfold_words
  rw [View.canon_unit_zero hz]
  simp only [View.readAt_eq_ld, h2.read_unread, h4.read_unread, h5.read_unread, View.ld_unit_zero (S := S512x6400) hz,
    View.ld_unit_zero (S := S512x1) hz]

/-- The last tile writes the updated shift plus the logarithm of the updated sum. -/
theorem out_C (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x : Vec F S512x6400 .f32) (xs0 xs1 : Vec F S512x1 .f32) :
    out0_C_1 c i a2 h2 a3 h3 a4 h4 a5 h5 hc0 hc1 x xs0 xs1 = k0_pay6 (k0_pay5 x xs0) (k0_pay4 x xs0 xs0 xs1) := by
  unfold out0_C_1
  rw [View.read_writes_eq_canon _ _ _ (cover0_C_1 c i a2 h2 a3 h3 a4 h4 a5 h5 hc0 hc1 x xs0 xs1)]
  unfold kernelRun0_C
  dsimp only
  sl_unfold_words
  rw [View.canon_unit_zero hz]
  simp only [View.readAt_eq_ld, h2.read_unread, h4.read_unread, h5.read_unread, View.ld_unit_zero (S := S512x6400) hz,
    View.ld_unit_zero (S := S512x1) hz, View.readCov_unit_zero (S := S512x1) _ hz]

/-- The first tile: the update, from the reset shift. -/
theorem shift_A (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x : Vec F S512x6400 .f32) :
    sout0_A_0 c i a2 h2 a3 h3 a4 h4 a5 h5 hc0 hc1 x = k0_pay5 x k0_pay1 := by
  unfold sout0_A_0
  rw [View.read_writes_eq_canon _ _ _ (scover0_A_0 c i a2 h2 a3 h3 a4 h4 a5 h5 hc0 hc1 x)]
  unfold kernelRun0_A
  dsimp only
  sl_unfold_words
  rw [View.canon_cons_unit_zero (S := S512x1) hz]
  simp only [View.readAt_eq_ld, h2.read_unread, View.ld_unit_zero (S := S512x6400) hz,
    View.readCov_unit_zero (S := S512x1) _ hz]

/-- The first tile: the update, from the reset shift and the zero sum. -/
theorem sum_A (c : Dev nD) (i : grid0.Coords) (a2 : Memref sig .tc .vmem S512x6400 .f32) (h2 : a2.IsWhole)
    (a3 : Memref sig .tc .vmem S512x1 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x : Vec F S512x6400 .f32) :
    sout0_A_1 c i a2 h2 a3 h3 a4 h4 a5 h5 hc0 hc1 x = k0_pay4 x k0_pay1 k0_pay1 k0_pay2 := by
  unfold sout0_A_1
  rw [View.read_writes_eq_canon _ _ _ (scover0_A_1 c i a2 h2 a3 h3 a4 h4 a5 h5 hc0 hc1 x)]
  unfold kernelRun0_A
  dsimp only
  sl_unfold_words
  rw [View.canon_cons_unit_zero (S := S512x1) hz]
  simp only [View.readAt_eq_ld, h2.read_unread, View.ld_unit_zero (S := S512x6400) hz,
    View.readCov_unit_zero (S := S512x1) _ hz]

end Cert.KernelIdeal.LseValue

end
-- ==== Proof.LseCore.lean ====
/-
  The log-sum-exp of a finite row of reals, computed as a stream of tiles.

  A streaming log-sum-exp keeps a shift `m` and a sum `l` of exponentials taken relative to that shift. The
  quantity that the recurrence preserves is `l * exp m`: it is the plain sum of the exponentials of the entries
  seen so far, whatever shift the next tile moves to. So the shift never has to be the running maximum for the
  result to be exact over the reals: any real shift gives `m + log l = log (Σ exp x)`. The same identity reads the
  textbook form `M + log (Σ exp (x - M))` with `M` the row's maximum.

  On the extended reals all of this stays inside the reals as long as every entry is a real: a maximum of
  finitely many reals over a nonempty set is a real, the exponential of a real is a real, and the logarithm of a
  positive real is a real.
-/
import Idealize.ShloMosaic.PureOps.Ideal
import Idealize.ShloMosaic.PureOps.Ideal.Laws

noncomputable section

open scoped BigOperators

namespace Cert.Lse

open Idealize.ShloMosaic

/-- The log-sum-exp of a finite family of reals. -/
def lse {ι : Type} [Fintype ι] (x : ι → ℝ) : ℝ := Real.log (∑ j, Real.exp (x j))

/-- A sum of exponentials over a nonempty family is positive. -/
theorem sum_exp_pos {ι : Type} [Fintype ι] [Nonempty ι] (x : ι → ℝ) : 0 < ∑ j, Real.exp (x j) :=
  Finset.sum_pos (fun j _ => Real.exp_pos (x j)) Finset.univ_nonempty

/-- One tile of the stream, over the reals: moving from shift `m` to ANY shift `m'` and adding the tile's
    exponentials relative to `m'` adds the tile's plain exponentials to `l * exp m`. -/
theorem step_real {ι : Type} (s : Finset ι) (x : ι → ℝ) (l m m' S : ℝ) (h : l * Real.exp m = S) :
    (l * Real.exp (m - m') + ∑ j ∈ s, Real.exp (x j - m')) * Real.exp m' = S + ∑ j ∈ s, Real.exp (x j) := by
  rw [add_mul, mul_assoc, ← Real.exp_add, sub_add_cancel, h, Finset.sum_mul]
  congr 1
  refine Finset.sum_congr rfl fun j _ => ?_
  rw [← Real.exp_add, sub_add_cancel]

/-- The end of the stream, over the reals: from `l * exp m = S` with `S` positive, `m + log l = log S`. -/
theorem final_real (l m S : ℝ) (h : l * Real.exp m = S) (hS : 0 < S) : m + Real.log l = Real.log S := by
  have hl : 0 < l := by
    rcases lt_or_ge 0 l with hl | hl
    · exact hl
    · exact absurd (h ▸ mul_nonpos_of_nonpos_of_nonneg hl (Real.exp_pos m).le) (not_le.mpr hS)
  rw [← h, Real.log_mul hl.ne' (Real.exp_pos m).ne', Real.log_exp]
  ring

/-- The sum of the casts of finitely many reals is the cast of their sum. -/
theorem sum_coe {ι : Type} (s : Finset ι) (f : ι → ℝ) :
    (∑ j ∈ s, (f j : EReal)) = ((∑ j ∈ s, f j : ℝ) : EReal) := by
  induction s using Finset.cons_induction with
  | empty => simp
  | cons a s ha ih => rw [Finset.sum_cons, Finset.sum_cons, ih, EReal.coe_add]

/-- The maximum of two reals, cast, is the maximum of the casts. -/
theorem coe_max (a b : ℝ) : max (a : EReal) (b : EReal) = ((max a b : ℝ) : EReal) :=
  (EReal.coe_strictMono.monotone.map_max).symm

/-- The fold, from the bottom element, of an operation that is `max` over finitely many reals of a nonempty set is a
    real. -/
theorem fold_real {ι : Type} (op : EReal → EReal → EReal) [Std.Commutative op] [Std.Associative op]
    (hop : ∀ x y, op x y = max x y) (s : Finset ι) (hs : s.Nonempty) (f : ι → ℝ) :
    ∃ r : ℝ, s.fold op (⊥ : EReal) (fun j => (f j : EReal)) = (r : EReal) := by
  induction hs using Finset.Nonempty.cons_induction with
  | singleton a => exact ⟨f a, by rw [Finset.fold_singleton, hop]; simp⟩
  | cons a s ha hs ih =>
    obtain ⟨r, hr⟩ := ih
    exact ⟨max (f a) r, by rw [Finset.fold_cons, hr, hop]; exact coe_max _ _⟩

/-- The maximum, from the bottom element, of finitely many reals over a nonempty set is a real. -/
theorem fold_max_real {ι : Type} (s : Finset ι) (hs : s.Nonempty) (f : ι → ℝ) :
    ∃ r : ℝ, s.fold max (⊥ : EReal) (fun j => (f j : EReal)) = (r : EReal) :=
  fold_real max (fun _ _ => rfl) s hs f

/-- One tile of the stream on the extended reals, every datum a real: the new shift (the old one against the
    tile's maximum) is a real `m'`, the new sum is a real `l'`, and `l' * exp m'` has grown by the tile's plain
    exponentials. -/
theorem step_ereal {n : ℕ} (hn : 0 < n) (xs : Fin n → ℝ) (m l S : ℝ) (h : l * Real.exp m = S) :
    ∃ m' l' : ℝ,
      max (m : EReal) ((Finset.univ : Finset (Fin n)).fold max (⊥ : EReal) (fun k => (xs k : EReal))) = (m' : EReal) ∧
      (l : EReal) * Ideal.exp ((m : EReal) - (m' : EReal)) + ∑ k : Fin n, Ideal.exp ((xs k : EReal) - (m' : EReal))
        = (l' : EReal) ∧
      l' * Real.exp m' = S + ∑ k : Fin n, Real.exp (xs k) := by
  obtain ⟨r, hr⟩ := fold_max_real Finset.univ ⟨⟨0, hn⟩, Finset.mem_univ _⟩ xs
  refine ⟨max m r, l * Real.exp (m - max m r) + ∑ k, Real.exp (xs k - max m r), ?_, ?_, step_real _ _ _ _ _ _ h⟩
  · rw [hr]; exact (EReal.coe_strictMono.monotone.map_max).symm
  · simp only [← EReal.coe_sub, Ideal.exp_coe, ← EReal.coe_mul, sum_coe, ← EReal.coe_add]

/-- One tile of the stream on the extended reals with the new shift ANY real `m'`: the new sum is a real `l'`, and
    `l' * exp m'` has grown by the tile's plain exponentials. -/
theorem step_ereal_any {n : ℕ} (xs : Fin n → ℝ) (m l S : ℝ) (h : l * Real.exp m = S) (m' : ℝ) :
    ∃ l' : ℝ,
      (l : EReal) * Ideal.exp ((m : EReal) - (m' : EReal)) + ∑ k : Fin n, Ideal.exp ((xs k : EReal) - (m' : EReal))
        = (l' : EReal) ∧
      l' * Real.exp m' = S + ∑ k : Fin n, Real.exp (xs k) := by
  refine ⟨l * Real.exp (m - m') + ∑ k, Real.exp (xs k - m'), ?_, step_real _ _ _ _ _ _ h⟩
  simp only [← EReal.coe_sub, Ideal.exp_coe, ← EReal.coe_mul, sum_coe, ← EReal.coe_add]

/-- The end of the stream on the extended reals: a real shift plus the logarithm of a positive real sum. -/
theorem final_ereal (l m S : ℝ) (h : l * Real.exp m = S) (hS : 0 < S) :
    (m : EReal) + Ideal.log (l : EReal) = ((Real.log S : ℝ) : EReal) := by
  have hl : 0 < l := by
    rcases lt_or_ge 0 l with hl | hl
    · exact hl
    · exact absurd (h ▸ mul_nonpos_of_nonpos_of_nonneg hl (Real.exp_pos m).le) (not_le.mpr hS)
  rw [Ideal.log_coe, if_neg (not_le.mpr hl), ← EReal.coe_add, final_real l m S h hS]

/-- The textbook form on the extended reals: an entry less a real shift `M`, less the logarithm of the sum of the
    row's exponentials relative to `M` (from a zero start), is the entry less the row's log-sum-exp. -/
theorem shifted_sub_log {n : ℕ} (hn : 0 < n) (xs : Fin n → ℝ) (M x : ℝ) :
    ((x : EReal) - (M : EReal)) - Ideal.log ((0 : EReal) + ∑ k : Fin n, Ideal.exp ((xs k : EReal) - (M : EReal)))
      = ((x - lse xs : ℝ) : EReal) := by
  haveI : Nonempty (Fin n) := ⟨⟨0, hn⟩⟩
  have hS : 0 < ∑ k : Fin n, Real.exp (xs k) := sum_exp_pos xs
  have hstep := step_real (Finset.univ : Finset (Fin n)) xs 0 0 M 0 (by simp)
  rw [zero_mul, zero_add, zero_add] at hstep
  have hfin := final_real _ M _ hstep hS
  simp only [← EReal.coe_sub, Ideal.exp_coe, sum_coe, zero_add]
  have hl : 0 < ∑ k : Fin n, Real.exp (xs k - M) := sum_exp_pos fun k => xs k - M
  rw [Ideal.log_coe, if_neg (not_le.mpr hl), ← EReal.coe_sub]
  congr 1
  unfold lse
  linarith

/-- A binary floating-point pattern whose exponent field is not all ones denotes a real. -/
theorem ieee_real (e m : ℕ) {w : ℕ} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- The pattern the stream's shift is reset to denotes a real: its exponent field is 254. -/
theorem resetShift_real : ∃ r : ℝ, Ideal.ofBits .f32 0xFF333332#32 = (r : EReal) :=
  ieee_real 8 23 (0xFF333332#32 : BitVec 32) (by decide)

end Cert.Lse

end
-- ==== Proof.KernelPayloads.lean ====
/-
  The body's arithmetic read at one row of the block, on the extended reals.

  A block of the logits is 512 rows by 6400 vocabulary entries; the shift and the sum are columns of 512 rows. At row ρ
  the new shift is the old shift against the maximum of the row's 6400 entries (taken from -∞), the new sum is the old
  sum times exp (old shift - new shift) plus the sum over the row of exp (entry - new shift), and the output is the
  shift plus the logarithm of the sum. When the row's entries, the old shift and the old sum are reals, these are the
  streaming step of the log-sum-exp, so the new shift and sum are reals and `sum * exp shift` grows by the row's plain
  exponentials. The lanes of a row are indexed as the lane reductions index them: lane k of row ρ is the index the
  reduction inserts at ρ and k, whose coordinates are (ρ, k).
-/
import proofs.«406159_j25486335934803_3_alg».proof.Proof.Gen.KernelIdeal.Skeleton
import proofs.«406159_j25486335934803_3_alg».proof.Proof.LseCore
import proofs.«406159_j25486335934803_3_alg».proof.Proof.LibReal
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.LseValue

open Cert.KernelIdeal Cert.KernelIdeal.Gen Cert.Lse Cert.LibReal

/-- Lane k of row ρ of a 512 × 6400 block. -/
abbrev lane (ρ : Fin 512) (k : Fin (S512x6400.size 1)) : S512x6400.Idx :=
  Gen.reduces_S512x6400_S512.lift (ix1 ρ) k

/-- Its coordinates are (ρ, k). -/
theorem lane_val (ρ : Fin 512) (k : Fin (S512x6400.size 1)) :
    (lane ρ k 0).val = ρ.val ∧ (lane ρ k 1).val = k.val := ⟨rfl, rfl⟩

/-- A vector of 512 rows cast to a column reads, at (ρ, 0), the vector at ρ. -/
theorem col_apply {α : Type} (v : S512.Idx → α) (ρ : Fin 512) :
    shapeCast S512x1 v Gen.shapeCasts_S512_S512x1 (ix2 ρ (0 : Fin 1)) = v (ix1 ρ) :=
  shapeCast_apply v Gen.shapeCasts_S512_S512x1 _ _ (by
    rw [Shape.rowMajor_val_two, Shape.rowMajor_val_one]
    show ρ.val = ρ.val * 1 + 0
    omega)

/-- A column broadcast along the lanes reads, at lane k of row ρ, the column at (ρ, 0). -/
theorem bcast_apply {α : Type} (v : S512x1.Idx → α) (ρ : Fin 512) (k : Fin (S512x6400.size 1)) :
    broadcastTo S512x6400 v Gen.broadcasts_S512x1_S512x6400 (lane ρ k) = v (ix2 ρ (0 : Fin 1)) := by
  refine broadcastTo_apply v Gen.broadcasts_S512x1_S512x6400 (lane ρ k) (ix2 ρ (0 : Fin 1)) fun ax => ?_
  match ax with
  | ⟨0, _⟩ =>
    show ρ.val = if (512 : ℕ) = 1 then 0 else ρ.val
    rw [if_neg (by decide)]
  | ⟨1, _⟩ =>
    show 0 = if (1 : ℕ) = 1 then 0 else k.val
    rw [if_pos rfl]

/-- The maximum of row ρ of a block, taken from the pattern of -∞: the lane maximum at ρ. -/
def rowMax (v3 : Vec Ideal S512x6400 .f32) (ρ : Fin 512) : Ideal .f32 :=
  multiReduction (F := Ideal) .maximumf [1] S512 v3 0xFF800000#32 Gen.reduces_S512x6400_S512 (.inl rfl) rfl (ix1 ρ)

/-- When the row's entries are reals, so is its maximum: the fold of `max` from -∞ over a nonempty row of reals. -/
theorem rowMax_real (v3 : Vec Ideal S512x6400 .f32) (ρ : Fin 512) (xs : Fin (S512x6400.size 1) → ℝ)
    (hx : ∀ k, v3 (lane ρ k) = (xs k : EReal)) : ∃ r : ℝ, rowMax v3 ρ = (r : EReal) := by
  unfold rowMax
  have h := Ideal.multiReduction_maximumf_single v3 0xFF800000#32 Gen.reduces_S512x6400_S512 (.inl rfl) rfl (ix1 ρ)
  have hf : (v3 ∘ Gen.reduces_S512x6400_S512.lift (ix1 ρ)) = fun k => ((xs k : ℝ) : EReal) := funext hx
  rw [hf] at h
  have hb : (FloatOps.ofBits (F := Ideal) .f32 0xFF800000#32 : Ideal .f32) = (⊥ : EReal) := ofBits_negInf_f32
  rw [hb] at h
  obtain ⟨r, hr⟩ := fold_max_real (Finset.univ : Finset (Fin (S512x6400.size 1))) ⟨⟨0, by decide⟩, Finset.mem_univ _⟩ xs
  exact ⟨r, h.trans hr⟩

/-- The lane sum of a block at row ρ is the sum over the row's lanes. -/
theorem laneSum_apply (src : Vec Ideal S512x6400 .f32) (ρ : Fin 512) :
    multiReduction (F := Ideal) .add [1] S512 src 0x00000000#32 Gen.reduces_S512x6400_S512 (.inl rfl) rfl (ix1 ρ)
      = ∑ k : Fin (S512x6400.size 1), src (lane ρ k) :=
  Ideal.multiReduction_add_single src 0x00000000#32 Gen.reduces_S512x6400_S512 (.inl rfl) rfl (ix1 ρ)

/-- The exponential of a vector read at an index. -/
theorem exp_apply {s : Shape} {φ : FTy} (v : FVec Ideal s φ) (i : s.Idx) : exp v i = Ideal.exp (v i) := rfl

/-- The new shift as a vector: the old shift against the lane maximum, as a column. -/
theorem newShift_eq (v3 : Vec Ideal S512x6400 .f32) (v6 : Vec Ideal S512x1 .f32) :
    k0_pay3 v3 v6 = maximumf v6 (shapeCast S512x1 (multiReduction (F := Ideal) .maximumf [1] S512 v3 0xFF800000#32
      Gen.reduces_S512x6400_S512 (.inl rfl) rfl) Gen.shapeCasts_S512_S512x1) := rfl

/-- The new shift at row ρ: the old shift against the row's maximum. -/
theorem newShift_apply (v3 : Vec Ideal S512x6400 .f32) (v6 : Vec Ideal S512x1 .f32) (ρ : Fin 512) :
    k0_pay3 v3 v6 (ix2 ρ (0 : Fin 1)) = max (v6 (ix2 ρ (0 : Fin 1))) (rowMax v3 ρ) := by
  rw [newShift_eq, maximumf_apply, col_apply]
  unfold rowMax
  rfl

/-- The new sum as a vector: the old sum times exp (old shift - new shift), plus the lane sum, as a column, of the
    exponentials of the block less the new shift broadcast along the lanes. -/
theorem newSum_eq (v3 : Vec Ideal S512x6400 .f32) (v6 v8 v14 : Vec Ideal S512x1 .f32) :
    k0_pay4 v3 v6 v8 v14
      = shapeCast S512x1 (addf (mulf v14 (exp (subf v8 (k0_pay3 v3 v6))))
          (shapeCast S512x1 (multiReduction (F := Ideal) .add [1] S512 (exp (subf v3 (broadcastTo S512x6400 (k0_pay3 v3 v6)
            Gen.broadcasts_S512x1_S512x6400))) 0x00000000#32 Gen.reduces_S512x6400_S512 (.inl rfl) rfl)
            Gen.shapeCasts_S512_S512x1)) Gen.shapeCasts_S512x1_S512x1 := rfl

/-- The new sum at row ρ: the old sum rescaled to the new shift, plus the row's exponentials relative to the new shift. -/
theorem newSum_apply (v3 : Vec Ideal S512x6400 .f32) (v6 v8 v14 : Vec Ideal S512x1 .f32) (ρ : Fin 512) :
    k0_pay4 v3 v6 v8 v14 (ix2 ρ (0 : Fin 1))
      = v14 (ix2 ρ (0 : Fin 1)) * Ideal.exp (v8 (ix2 ρ (0 : Fin 1)) - k0_pay3 v3 v6 (ix2 ρ (0 : Fin 1)))
        + ∑ k : Fin (S512x6400.size 1), Ideal.exp (v3 (lane ρ k) - k0_pay3 v3 v6 (ix2 ρ (0 : Fin 1))) := by
  rw [newSum_eq, shapeCast_self, addf_apply, mulf_apply, exp_apply, subf_apply, col_apply, laneSum_apply]
  refine congrArg (_ + ·) (Finset.sum_congr rfl fun k _ => ?_)
  rw [exp_apply, subf_apply, bcast_apply]

/-- The stored shift is the new shift. -/
theorem storedShift_eq (v3 : Vec Ideal S512x6400 .f32) (v6 : Vec Ideal S512x1 .f32) : k0_pay5 v3 v6 = k0_pay3 v3 v6 := by
  unfold k0_pay5
  exact shapeCast_self _ _

/-- The output at an index: the shift plus the logarithm of the sum. -/
theorem out_apply (v28 v29 : Vec Ideal S512x1 .f32) (j : S512x1.Idx) :
    k0_pay6 v28 v29 j = v28 j + Ideal.log (v29 j) := rfl

/-- The reset shift at any index is a real, and the reset sum is zero. -/
theorem resetShift_apply (j : S512x1.Idx) : ∃ r : ℝ, k0_pay1 (F := Ideal) j = (r : EReal) := by
  obtain ⟨r, hr⟩ := resetShift_real
  refine ⟨r, ?_⟩
  unfold k0_pay1
  rw [shapeCast_self]
  exact hr

theorem resetSum_apply (j : S512x1.Idx) : k0_pay2 (F := Ideal) j = ((0 : ℝ) : EReal) := by
  unfold k0_pay2
  rw [shapeCast_self]
  show Ideal.ofBits .f32 0x00000000#32 = _
  rw [Ideal.ofBits_zero_f32, EReal.coe_zero]

/-- ONE TILE AT ONE ROW. With the row's entries, the old shift and the old sum reals and `l * exp m = S`, the stored
    shift and sum are reals `m'`, `l'` with `l' * exp m' = S + Σ exp (row's entries)`. -/
theorem tile_row (v3 : Vec Ideal S512x6400 .f32) (vm vl : Vec Ideal S512x1 .f32) (ρ : Fin 512)
    (xs : Fin (S512x6400.size 1) → ℝ) (hx : ∀ k, v3 (lane ρ k) = (xs k : EReal)) (m l S : ℝ)
    (hm : vm (ix2 ρ (0 : Fin 1)) = (m : EReal)) (hl : vl (ix2 ρ (0 : Fin 1)) = (l : EReal)) (h : l * Real.exp m = S) :
    ∃ m' l' : ℝ, k0_pay5 v3 vm (ix2 ρ (0 : Fin 1)) = (m' : EReal) ∧ k0_pay4 v3 vm vm vl (ix2 ρ (0 : Fin 1)) = (l' : EReal)
      ∧ l' * Real.exp m' = S + ∑ k : Fin (S512x6400.size 1), Real.exp (xs k) := by
  obtain ⟨r, hr⟩ := rowMax_real v3 ρ xs hx
  obtain ⟨l', h2, h3⟩ := step_ereal_any (n := S512x6400.size 1) xs m l S h (max m r)
  have hs : k0_pay3 v3 vm (ix2 ρ (0 : Fin 1)) = ((max m r : ℝ) : EReal) := by
    rw [newShift_apply, hm, hr, coe_max]
  refine ⟨max m r, l', ?_, ?_, h3⟩
  · rw [storedShift_eq]; exact hs
  · rw [newSum_apply, hs, hm, hl]
    rw [show (∑ k : Fin (S512x6400.size 1), Ideal.exp (v3 (lane ρ k) - ((max m r : ℝ) : EReal)))
        = ∑ k : Fin (S512x6400.size 1), Ideal.exp ((xs k : EReal) - ((max m r : ℝ) : EReal))
      from Finset.sum_congr rfl fun k _ => by rw [hx k]]
    exact h2

end Cert.KernelIdeal.LseValue

end
-- ==== Proof.LseRows.lean ====
/-
  Rows of the logits as rows of reals.

  Under the finiteness precondition every entry of the 8192 × 32000 array of logits is a real. `ent X r j` is the real
  the entry (r, j) denotes (zero outside the array, so that rows can be summed over ranges of naturals), and
  `rowLse X r` is the log-sum-exp of row r. A row is streamed in five tiles of 6400 entries: the sum of exponentials
  over the first k + 1 tiles is the sum over the first k plus the sum over the tile.
-/
import proofs.«406159_j25486335934803_3_alg».proof.Proof.LseCore
import Idealize.ShloMosaic.Lib.ValueIdx

noncomputable section

open scoped BigOperators

namespace Cert.Lse

open Idealize.ShloMosaic Idealize.ShloMosaic.ValueIdx

/-- The shape of the logits. -/
abbrev LogitsShape : Shape := ⟨2, ![8192, 32000]⟩

/-- The real the entry (r, j) of an array of logits denotes; zero outside the array. -/
def ent (X : LogitsShape.Idx → EReal) (r j : ℕ) : ℝ :=
  if h : r < 8192 ∧ j < 32000 then (X (ix2 ⟨r, h.1⟩ ⟨j, h.2⟩)).toReal else 0

/-- An entry that is a real is the cast of what it denotes. -/
theorem ent_eq (X : LogitsShape.Idx → EReal) (hX : ∀ p, ∃ r : ℝ, X p = (r : EReal)) (a : Fin 8192) (b : Fin 32000) :
    X (ix2 a b) = ((ent X a.val b.val : ℝ) : EReal) := by
  obtain ⟨r, hr⟩ := hX (ix2 a b)
  unfold ent
  rw [dif_pos ⟨a.isLt, b.isLt⟩]
  show X (ix2 a b) = (((X (ix2 a b)).toReal : ℝ) : EReal)
  rw [hr, EReal.toReal_coe]

/-- The same at any index of the array, by its two coordinates. -/
theorem ent_eq_idx (X : LogitsShape.Idx → EReal) (hX : ∀ p, ∃ r : ℝ, X p = (r : EReal)) (p : LogitsShape.Idx) :
    X p = ((ent X (p 0).val (p 1).val : ℝ) : EReal) := by
  exact (congrArg X (eq_ix2 p)).trans (ent_eq X hX (p 0) (p 1))

/-- The log-sum-exp of row r. -/
def rowLse (X : LogitsShape.Idx → EReal) (r : ℕ) : ℝ := Real.log (∑ j ∈ Finset.range 32000, Real.exp (ent X r j))

/-- A row's sum of exponentials is positive. -/
theorem rowSum_pos (X : LogitsShape.Idx → EReal) (r : ℕ) : 0 < ∑ j ∈ Finset.range 32000, Real.exp (ent X r j) :=
  Finset.sum_pos (fun j _ => Real.exp_pos _) ⟨0, Finset.mem_range.mpr (by norm_num)⟩

/-- As a log-sum-exp over the row's 32000 positions. -/
theorem rowLse_eq_lse (X : LogitsShape.Idx → EReal) (r : ℕ) : rowLse X r = lse (fun k : Fin 32000 => ent X r k.val) := by
  unfold rowLse lse
  rw [Fin.sum_univ_eq_sum_range (fun j => Real.exp (ent X r j)) 32000]

/-- ONE MORE TILE: if `S` is the sum over the first k tiles of 6400 and `T` is `S` plus the sum over tile k (indexed by
    a type of 6400 positions), then `T` is the sum over the first k + 1 tiles. -/
theorem tiles_succ (f : ℕ → ℝ) (k : ℕ) (S T : ℝ) (hS : S = ∑ j ∈ Finset.range (6400 * k), f j) {n : ℕ} (hn : n = 6400)
    (hT : T = S + ∑ i : Fin n, f (6400 * k + i.val)) : T = ∑ j ∈ Finset.range (6400 * (k + 1)), f j := by
  subst hn
  rw [hT, hS, Nat.mul_succ, Finset.sum_range_add, Fin.sum_univ_eq_sum_range (fun i => f (6400 * k + i)) 6400]

end Cert.Lse

end
-- ==== Proof.KernelValue.lean ====
/-
  What the kernel's result array holds: the log-sum-exp of each row of the logits.

  The grid is 16 row blocks by 5 vocabulary tiles, walked row block by row block: point t is row block t / 5 and tile
  t % 5, and its input block is rows 512 (t / 5) … of the logits, columns 6400 (t % 5) …. For a row ρ of the block let
  `m` and `l` be what the two carried buffers hold at ρ after point t. The invariant of the walk, under the finiteness
  precondition: both are reals, and `l * exp m` is the sum of `exp` of the row's entries over the tiles 0 … t % 5. It
  holds after a first tile because the buffers were reset to a real shift and a zero sum (`0 * exp m = 0`, the empty
  sum), and each later tile adds its own exponentials. At the last tile (t % 5 = 4) the sum runs over the whole row, and
  the output block gets `m + log l`, the row's log-sum-exp, whatever the shifts were on the way. Those 16 output
  blocks tile the result array.
-/
import proofs.«406159_j25486335934803_3_alg».proof.Proof.Gen.KernelIdeal.Frame
import proofs.«406159_j25486335934803_3_alg».proof.Proof.KernelPieces
import proofs.«406159_j25486335934803_3_alg».proof.Proof.KernelPayloads
import proofs.«406159_j25486335934803_3_alg».proof.Proof.LseRows
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.LseValue

open Cert.KernelIdeal Cert.KernelIdeal.Gen Cert.Lse

variable (m : (ℓ : Loc nD τ sig) → Buf (Elt Ideal) ℓ)

/-- The logits as the region finds them. -/
abbrev logits (c : Dev nD) : Vec Ideal S8192x32000 .f32 := V m c main_arg0

/-- The block of the logits the body reads at point t. -/
abbrev xblk (c : Dev nD) (t : Fin cfg0.N) : Vec Ideal S512x6400 .f32 := iblk m c 0 t

/-- The carried shift and sum as the point before t left them. -/
abbrev prevShift (c : Dev nD) (t : Fin cfg0.N) : Vec Ideal S512x1 .f32 :=
  (outsAt0 m c (t.val - 1) (Nat.lt_of_le_of_lt (Nat.sub_le _ _) t.isLt)).2.1
abbrev prevSum (c : Dev nD) (t : Fin cfg0.N) : Vec Ideal S512x1 .f32 :=
  (outsAt0 m c (t.val - 1) (Nat.lt_of_le_of_lt (Nat.sub_le _ _) t.isLt)).2.2

/-- Point t is row block t / 5 and tile t % 5, for the input window and for the output window (whose block column is 0). -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = 0 :=
  (by decide +kernel : ∀ t : Fin grid0.N, _)

/-- Lane k of row ρ of point t's block is entry (512 (t / 5) + ρ, 6400 (t % 5) + k) of the logits. -/
theorem xblk_lane (c : Dev nD) (hX : ∀ p, ∃ r : ℝ, logits m c p = (r : EReal)) (t : Fin cfg0.N) (ρ : Fin 512)
    (k : Fin (S512x6400.size 1)) :
    xblk m c t (lane ρ k)
      = ((ent (logits m c) (512 * (t.val / 5) + ρ.val) (6400 * (t.val % 5) + k.val) : ℝ) : EReal) := by
  obtain ⟨e0, e1, -, -⟩ := idx_facts t
  show iblk m c 0 t (lane ρ k) = _
  unfold iblk
  rw [View.read_apply]
  show logits m c (((cfg0.win 0).blk t).view.emb (lane ρ k)) = _
  rw [ent_eq_idx (logits m c) hX]
  have h0 : ((((cfg0.win 0).blk t).view.emb (lane ρ k)) 0).val = 512 * (t.val / 5) + ρ.val := by
    show win0_0.index t (0 : Fin 2) * 512 + 1 * (lane ρ k 0).val = _
    rw [e0, (lane_val ρ k).1]; omega
  have h1 : ((((cfg0.win 0).blk t).view.emb (lane ρ k)) 1).val = 6400 * (t.val % 5) + k.val := by
    show win0_0.index t (1 : Fin 2) * 6400 + 1 * (lane ρ k 1).val = _
    rw [e1, (lane_val ρ k).2]; omega
  rw [h0, h1]

/-! ## What the carried buffers and the output block hold at each kind of point -/

/-- A first tile: the update from the reset values. -/
theorem at_A (c : Dev nD) (t : Fin cfg0.N) (h0 : t.val % 5 = 0) (h1 : ¬t.val % 5 = 4) :
    (outsAt0 m c t.val t.isLt).2.1 = k0_pay5 (xblk m c t) (k0_pay1 (F := Ideal))
    ∧ (outsAt0 m c t.val t.isLt).2.2
        = k0_pay4 (xblk m c t) (k0_pay1 (F := Ideal)) (k0_pay1 (F := Ideal)) (k0_pay2 (F := Ideal)) := by
  rw [outsAt0_A m c t h0 h1]
  dsimp only
  exact ⟨shift_A (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk m c t),
    sum_A (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (xblk m c t)⟩

/-- A middle tile: the update from what the point before left. -/
theorem at_B (c : Dev nD) (t : Fin cfg0.N) (h0 : ¬t.val % 5 = 0) (h1 : ¬t.val % 5 = 4) :
    (outsAt0 m c t.val t.isLt).2.1 = k0_pay5 (xblk m c t) (prevShift m c t)
    ∧ (outsAt0 m c t.val t.isLt).2.2 = k0_pay4 (xblk m c t) (prevShift m c t) (prevShift m c t) (prevSum m c t) := by
  rw [outsAt0_B m c t h0 h1]
  dsimp only
  exact ⟨shift_B (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk m c t)
      (prevShift m c t) (prevSum m c t),
    sum_B (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (xblk m c t)
      (prevShift m c t) (prevSum m c t)⟩

/-- A last tile: the same update, and the output block from the updated values. -/
theorem at_C (c : Dev nD) (t : Fin cfg0.N) (h0 : ¬t.val % 5 = 0) (h1 : t.val % 5 = 4) :
    (outsAt0 m c t.val t.isLt).2.1 = k0_pay5 (xblk m c t) (prevShift m c t)
    ∧ (outsAt0 m c t.val t.isLt).2.2 = k0_pay4 (xblk m c t) (prevShift m c t) (prevShift m c t) (prevSum m c t)
    ∧ (outsAt0 m c t.val t.isLt).1 = k0_pay6 (k0_pay5 (xblk m c t) (prevShift m c t))
        (k0_pay4 (xblk m c t) (prevShift m c t) (prevShift m c t) (prevSum m c t)) := by
  rw [outsAt0_C m c t h0 h1]
  dsimp only
  exact ⟨shift_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t)
      (prevShift m c t) (prevSum m c t),
    sum_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t)
      (prevShift m c t) (prevSum m c t),
    out_C (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (xblk m c t)
      (prevShift m c t) (prevSum m c t)⟩

/-! ## The invariant of the walk -/

/-- After point n, at row ρ: the carried shift and sum are reals `mr`, `lr`, and `lr * exp mr` is the sum of `exp` of
    the row's entries over the tiles 0 … n % 5. -/
def Carried (c : Dev nD) (n : ℕ) (h : n < cfg0.N) (ρ : Fin 512) : Prop :=
  ∃ mr lr : ℝ, (outsAt0 m c n h).2.1 (ix2 ρ (0 : Fin 1)) = (mr : EReal)
    ∧ (outsAt0 m c n h).2.2 (ix2 ρ (0 : Fin 1)) = (lr : EReal)
    ∧ lr * Real.exp mr
        = ∑ j ∈ Finset.range (6400 * (n % 5 + 1)), Real.exp (ent (logits m c) (512 * (n / 5) + ρ.val) j)

/-- ONE POINT. If point t stores the update of a shift `vm` and a sum `vl` that are reals at row ρ with
    `lp * exp mp` the sum over the tiles before tile t % 5, the invariant holds after t. -/
theorem carried_of (c : Dev nD) (hX : ∀ p, ∃ r : ℝ, logits m c p = (r : EReal)) (t : Fin cfg0.N) (ρ : Fin 512)
    (vm vl : Vec Ideal S512x1 .f32)
    (hs : (outsAt0 m c t.val t.isLt).2.1 = k0_pay5 (xblk m c t) vm)
    (hl : (outsAt0 m c t.val t.isLt).2.2 = k0_pay4 (xblk m c t) vm vm vl)
    (mp lp : ℝ) (hmp : vm (ix2 ρ (0 : Fin 1)) = (mp : EReal)) (hlp : vl (ix2 ρ (0 : Fin 1)) = (lp : EReal))
    (hprev : lp * Real.exp mp
      = ∑ j ∈ Finset.range (6400 * (t.val % 5)), Real.exp (ent (logits m c) (512 * (t.val / 5) + ρ.val) j)) :
    Carried m c t.val t.isLt ρ := by
  obtain ⟨m', l', h1, h2, h3⟩ := tile_row (xblk m c t) vm vl ρ
    (fun k => ent (logits m c) (512 * (t.val / 5) + ρ.val) (6400 * (t.val % 5) + k.val))
    (fun k => xblk_lane m c hX t ρ k) mp lp _ hmp hlp hprev
  refine ⟨m', l', ?_, ?_, ?_⟩
  · rw [hs]; exact h1
  · rw [hl]; exact h2
  · exact tiles_succ (fun j => Real.exp (ent (logits m c) (512 * (t.val / 5) + ρ.val) j)) (t.val % 5) _ _ rfl
      (n := S512x6400.size 1) rfl h3

/-- After a first tile. -/
theorem carried_A (c : Dev nD) (hX : ∀ p, ∃ r : ℝ, logits m c p = (r : EReal)) (t : Fin cfg0.N) (h0 : t.val % 5 = 0)
    (ρ : Fin 512) : Carried m c t.val t.isLt ρ := by
  obtain ⟨hs, hl⟩ := at_A m c t h0 (by omega)
  obtain ⟨r0, hr0⟩ := resetShift_apply (ix2 ρ (0 : Fin 1))
  refine carried_of m c hX t ρ (k0_pay1 (F := Ideal)) (k0_pay2 (F := Ideal)) hs hl r0 0 hr0 (resetSum_apply _) ?_
  rw [h0]
  simp

/-- THE INVARIANT, by induction on the point. -/
theorem carried (c : Dev nD) (hX : ∀ p, ∃ r : ℝ, logits m c p = (r : EReal)) :
    ∀ (n : ℕ) (h : n < cfg0.N) (ρ : Fin 512), Carried m c n h ρ := by
  intro n
  induction n with
  | zero => intro h ρ; exact carried_A m c hX ⟨0, h⟩ rfl ρ
  | succ n ih =>
    intro h ρ
    by_cases h0 : (n + 1) % 5 = 0
    · exact carried_A m c hX ⟨n + 1, h⟩ h0 ρ
    · obtain ⟨mp, lp, hmp, hlp, hprev⟩ := ih (Nat.lt_of_succ_lt h) ρ
      have hq : (n + 1) / 5 = n / 5 := by omega
      have hr : (n + 1) % 5 = n % 5 + 1 := by omega
      have hprev' : lp * Real.exp mp = ∑ j ∈ Finset.range (6400 * ((n + 1) % 5)),
          Real.exp (ent (logits m c) (512 * ((n + 1) / 5) + ρ.val) j) := by rw [hq, hr]; exact hprev
      by_cases h1 : (n + 1) % 5 = 4
      · obtain ⟨hs, hl, -⟩ := at_C m c ⟨n + 1, h⟩ h0 h1
        exact carried_of m c hX ⟨n + 1, h⟩ ρ _ _ hs hl mp lp hmp hlp hprev'
      · obtain ⟨hs, hl⟩ := at_B m c ⟨n + 1, h⟩ h0 h1
        exact carried_of m c hX ⟨n + 1, h⟩ ρ _ _ hs hl mp lp hmp hlp hprev'

/-! ## The output block and the result array -/

/-- At a last tile the output block holds, at row ρ, the log-sum-exp of row 512 (t / 5) + ρ of the logits. -/
theorem out_row (c : Dev nD) (hX : ∀ p, ∃ r : ℝ, logits m c p = (r : EReal)) (t : Fin cfg0.N) (h0 : ¬t.val % 5 = 0)
    (h1 : t.val % 5 = 4) (ρ : Fin 512) :
    (outsAt0 m c t.val t.isLt).1 (ix2 ρ (0 : Fin 1)) = ((rowLse (logits m c) (512 * (t.val / 5) + ρ.val) : ℝ) : EReal) := by
  obtain ⟨hs, hl, ho⟩ := at_C m c t h0 h1
  obtain ⟨mr, lr, hm, hlr, hsum⟩ := carried m c hX t.val t.isLt ρ
  rw [ho, out_apply, ← hs, ← hl, hm, hlr]
  have h5 : 6400 * (t.val % 5 + 1) = 32000 := by omega
  rw [h5] at hsum
  exact final_ereal lr mr _ hsum (rowSum_pos _ _)

/-- The same at any index of the output block. -/
theorem out_idx (c : Dev nD) (hX : ∀ p, ∃ r : ℝ, logits m c p = (r : EReal)) (t : Fin cfg0.N) (h0 : ¬t.val % 5 = 0)
    (h1 : t.val % 5 = 4) (y : S512x1.Idx) :
    (outsAt0 m c t.val t.isLt).1 y = ((rowLse (logits m c) (512 * (t.val / 5) + (y 0).val) : ℝ) : EReal) := by
  have hy : y = ix2 (y 0) (0 : Fin 1) := by
    funext a
    match a with
    | ⟨0, _⟩ => rfl
    | ⟨1, _⟩ => exact Fin.ext (by have h : (y 1).val < 1 := (y 1).isLt; show (y 1).val = 0; omega)
  obtain ⟨ρ, rfl⟩ : ∃ ρ : Fin 512, y = ix2 ρ (0 : Fin 1) := ⟨y 0, hy⟩
  exact out_row m c hX t h0 h1 ρ

/-- What the result array holds: at row r, the log-sum-exp of row r of the logits. -/
def lseArr (c : Dev nD) : Buf (Elt Ideal) ((c : Thread nD τ).loc main_call0_v0) :=
  fun q => ((rowLse (logits m c) (q 0).val : ℝ) : EReal)

/-- What a last tile writes back is its block of that array. -/
theorem flushed_eq (c : Dev nD) (hX : ∀ p, ∃ r : ℝ, logits m c p = (r : EReal)) (t : Fin cfg0.N)
    (hf : (cfg0.win 1).flush t = true) :
    (dats m 0 c).flushed 1 t = ((cfg0.win 1).blk t).view.read (Elt Ideal) (lseArr m c) := by
  have h1 : t.val % 5 = 4 := (flush0_1 t).mp hf
  have h0 : ¬t.val % 5 = 0 := by omega
  obtain ⟨-, -, e2, -⟩ := idx_facts t
  show (cfg0.win 1).cut (grid0.coords t) ((dats m 0 c).after 1 t) = _
  rw [after0_1]
  funext y
  show (outsAt0 m c t.val t.isLt).1 y = lseArr m c (((cfg0.win 1).blk t).view.emb y)
  rw [out_idx m c hX t h0 h1 y]
  unfold lseArr
  have hq : ((((cfg0.win 1).blk t).view.emb y) 0).val = 512 * (t.val / 5) + (y 0).val := by
    show win0_1.index t (0 : Fin 2) * 512 + 1 * (y 0).val = _
    rw [e2]; omega
  show _ = ((rowLse (logits m c) ((((cfg0.win 1).blk t).view.emb y) 0).val : ℝ) : EReal)
  rw [hq]

/-- Every index of the result array is in the block of the last tile of its row block. -/
theorem cover (c : Dev nD) (q : S8192x1.Idx) :
    ∃ t : Fin cfg0.N, (cfg0.win 1).flush t = true ∧ q ∈ ((cfg0.win 1).blk t).view.set := by
  have hN : cfg0.N = 80 := N_0
  have hq0 : (q 0).val < 8192 := (q 0).isLt
  have hq1 : (q 1).val < 1 := (q 1).isLt
  have ht : 5 * ((q 0).val / 512) + 4 < cfg0.N := by omega
  obtain ⟨-, -, e2, e3⟩ := idx_facts ⟨5 * ((q 0).val / 512) + 4, ht⟩
  have e2' : win0_1.index ⟨5 * ((q 0).val / 512) + 4, ht⟩ (0 : Fin 2) = (q 0).val / 512 := by
    rw [e2]; show (5 * ((q 0).val / 512) + 4) / 5 = (q 0).val / 512; omega
  refine ⟨⟨5 * ((q 0).val / 512) + 4, ht⟩, (flush0_1 _).mpr (by show (5 * ((q 0).val / 512) + 4) % 5 = 4; omega), ?_⟩
  show q ∈ ((View.whole main_call0_v0).slice (win0_1.rect ⟨5 * ((q 0).val / 512) + 4, ht⟩)).set
  rw [View.set_slice_whole, Rect.mem_set_unit]
  intro a
  match a with
  | ⟨0, _⟩ =>
    show win0_1.index ⟨5 * ((q 0).val / 512) + 4, ht⟩ (0 : Fin 2) * 512 ≤ (q 0).val
      ∧ (q 0).val < win0_1.index ⟨5 * ((q 0).val / 512) + 4, ht⟩ (0 : Fin 2) * 512 + 512
    rw [e2']
    omega
  | ⟨1, _⟩ =>
    show win0_1.index ⟨5 * ((q 0).val / 512) + 4, ht⟩ (1 : Fin 2) * 1 ≤ (q 1).val
      ∧ (q 1).val < win0_1.index ⟨5 * ((q 0).val / 512) + 4, ht⟩ (1 : Fin 2) * 1 + 1
    rw [e3]
    omega

/-- THE RESULT ARRAY after the region: the log-sum-exp of each row of the logits. -/
theorem final_lse (c : Dev nD) (hX : ∀ p, ∃ r : ℝ, logits m c p = (r : EReal)) :
    (dats m 0 c).arrAt 1 cfg0.N = lseArr m c :=
  (dats m 0 c).arrAt_eq_of_cover 1 (lseArr m c) (flushed_eq m c hX) (cover c)

end Cert.KernelIdeal.LseValue

end
-- ==== Proof.TailShared.lean ====
/-
  The part of the two programs after the log-sum-exp, as one function.

  Both programs gather one entry per row (the entry at the row's target, the target wrapped once if negative and the
  entry replaced by the not-a-number pattern where the wrapped target is out of range), weight it by a two-index
  gather from the weight table, sum the 8192 products from zero and divide by 8192. They differ only in the vector
  that is weighted: the kernel's is the row's log-sum-exp less the picked logit, the reference's is the negated
  picked log-softmax. `pick Y x1` is the masked gather from an array `Y`, and `tailFn ce x1 x2 x3` is the weighted
  mean of a vector `ce`; the reference's result is `tailFn` of its vector by unfolding its stages.
-/
import proofs.«406159_j25486335934803_3_alg».proof.Proof.RefRead

noncomputable section

namespace Cert.Tail

open Idealize.ShloMosaic Cert.ReferenceIdeal Cert.ReferenceIdeal.Gen Cert.ReferenceIdeal.ReadP

variable {F : FTy → Type} [FloatOps F]

/-- The masked gather of one entry per row from `Y`, by the targets `x1`, as a vector of 8192 entries. -/
def pick (Y : (⟨S8192x32000, .f32⟩ : BufTy).Contents (Elt F)) (x1 : (⟨S8192, .i32⟩ : BufTy).Contents (Elt F)) :
    (⟨S8192, .f32⟩ : BufTy).Contents (Elt F) :=
  shapeCast _ (select (val_main_call1_v12 (F := F) x1)
    (Host.gather gather_S8192x32000_S8192x1x1_S8192x1_n_1_0_0_1_2_11 Y (val_main_call1_v5 (F := F) x1))
    (val_main_call1_v14 (F := F))) Gen.shapeCasts_S8192x1_S8192

/-- The weighted mean of a vector `ce`: weights gathered from the table `x3` at (text key, target). -/
def tailFn (ce : (⟨S8192, .f32⟩ : BufTy).Contents (Elt F)) (x1 x2 : (⟨S8192, .i32⟩ : BufTy).Contents (Elt F))
    (x3 : (⟨S100x32000, .f32⟩ : BufTy).Contents (Elt F)) : (⟨S_, .f32⟩ : BufTy).Contents (Elt F) :=
  Host.divf (Host.reduceAdd (mulf ce (val_main_v18 (F := F) x1 x2 x3)) (val_main_cst (F := F))
    Gen.reducesTo_S8192_S_d0 Gen.h_S_) (val_main_cst_3 (F := F))

/-- The reference's result is the weighted mean of its negated picked log-softmax. -/
theorem ref_eq (x0 : (⟨S8192x32000, .f32⟩ : BufTy).Contents (Elt F)) (x1 x2 : (⟨S8192, .i32⟩ : BufTy).Contents (Elt F))
    (x3 : (⟨S100x32000, .f32⟩ : BufTy).Contents (Elt F)) :
    val_main_v21 (F := F) x0 x1 x2 x3 = tailFn (Host.negf (pick (val_main_v0 (F := F) x0) x1)) x1 x2 x3 := rfl

end Cert.Tail

end
-- ==== Proof.KernelTail.lean ====
/-
  The kernel's program after the region, as the shared weighted mean.

  After the region the program flattens the result array, gathers the logit at each row's target from the logits,
  subtracts it from the flattened array, weights the difference and takes the mean: the shared tail, applied to the
  result array and the argument arrays as the region left them.
-/
import proofs.«406159_j25486335934803_3_alg».proof.Proof.Gen.KernelIdeal.Frame
import proofs.«406159_j25486335934803_3_alg».proof.Proof.TailShared
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.LseTail

open Cert.KernelIdeal Cert.KernelIdeal.Gen Cert.Tail

variable {F : FTy → Type} [FloatOps F] (m : (ℓ : Loc nD τ sig) → Buf (Elt F) ℓ)

/-- What the operations after the region read of a buffer: a pipeline array as the region left it, any other buffer
    as it was launched. -/
abbrev rd (c : Dev nD) (b : Ref sig .tc) : Buf (Elt F) ((c : Thread nD τ).loc b) :=
  Pipeline.withArrays (cfgs 0).spec c (V0 m c) (fun w => (dats m 0 c).arrAt w (cfgs 0).N) (Proc.tc.devRef b)

set_option maxRecDepth 65536 in
set_option maxHeartbeats 8000000 in
/-- The program's result is the shared tail of the result array less the picked logits. -/
theorem tail_eq (c : Dev nD) :
    Pipeline.afterTail₀ cfgs (dats m) 0 (V0 m) [hostOps1] c main_v0
      = tailFn (subf (shapeCast Cert.ReferenceIdeal.S8192 (rd m c main_call0_v0)
          Cert.ReferenceIdeal.Gen.shapeCasts_S8192x1_S8192) (pick (rd m c main_arg0) (rd m c main_arg1)))
        (rd m c main_arg1) (rd m c main_arg2) (rd m c main_arg3) := by
  unfold Pipeline.afterTail₀
  show StableHlo.after hostOps1 _ (Proc.devRef .tc main_v0) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [binaryIndexed_result_ne]; rotate_left; decide))
  simp only [TRef.ofBuf, TRef.toBuf, cast_eq]
  unfold tailFn pick
  simp only [Cert.ReferenceIdeal.ReadP.val_main_v18,
    Cert.ReferenceIdeal.ReadP.val_main_v17,
    Cert.ReferenceIdeal.ReadP.val_main_v15,
    Cert.ReferenceIdeal.ReadP.val_main_v16,
    Cert.ReferenceIdeal.ReadP.val_main_v9,
    Cert.ReferenceIdeal.ReadP.val_main_v14,
    Cert.ReferenceIdeal.ReadP.val_main_v6,
    Cert.ReferenceIdeal.ReadP.val_main_v8,
    Cert.ReferenceIdeal.ReadP.val_main_v11,
    Cert.ReferenceIdeal.ReadP.val_main_v13,
    Cert.ReferenceIdeal.ReadP.val_main_v5,
    Cert.ReferenceIdeal.ReadP.val_main_v7,
    Cert.ReferenceIdeal.ReadP.val_main_v10,
    Cert.ReferenceIdeal.ReadP.val_main_v12,
    Cert.ReferenceIdeal.ReadP.val_main_c,
    Cert.ReferenceIdeal.ReadP.val_main_c_0,
    Cert.ReferenceIdeal.ReadP.val_main_c_1,
    Cert.ReferenceIdeal.ReadP.val_main_c_2,
    Cert.ReferenceIdeal.ReadP.val_main_cst,
    Cert.ReferenceIdeal.ReadP.val_main_cst_3,
    Cert.ReferenceIdeal.ReadP.val_main_call1_v12,
    Cert.ReferenceIdeal.ReadP.val_main_call1_v11,
    Cert.ReferenceIdeal.ReadP.val_main_call1_v7,
    Cert.ReferenceIdeal.ReadP.val_main_call1_v10,
    Cert.ReferenceIdeal.ReadP.val_main_call1_v5,
    Cert.ReferenceIdeal.ReadP.val_main_call1_v6,
    Cert.ReferenceIdeal.ReadP.val_main_call1_v9,
    Cert.ReferenceIdeal.ReadP.val_main_call1_v8,
    Cert.ReferenceIdeal.ReadP.val_main_call1_c_1,
    Cert.ReferenceIdeal.ReadP.val_main_call1_c_2,
    Cert.ReferenceIdeal.ReadP.val_main_call1_c_3,
    Cert.ReferenceIdeal.ReadP.val_main_call1_v4,
    Cert.ReferenceIdeal.ReadP.val_main_call1_v1,
    Cert.ReferenceIdeal.ReadP.val_main_call1_v3,
    Cert.ReferenceIdeal.ReadP.val_main_v1,
    Cert.ReferenceIdeal.ReadP.val_main_call1_v0,
    Cert.ReferenceIdeal.ReadP.val_main_call1_c,
    Cert.ReferenceIdeal.ReadP.val_main_call1_v2,
    Cert.ReferenceIdeal.ReadP.val_main_call1_c_0,
    Cert.ReferenceIdeal.ReadP.val_main_call1_v14,
    Cert.ReferenceIdeal.ReadP.val_main_call1_cst]
  rfl

end Cert.KernelIdeal.LseTail

end
-- ==== Proof.KernelRun.lean ====
/-
  The kernel's run, read: its result is the shared weighted mean of the rows' log-sum-exp less the picked logits.

  The region leaves the result array at the log-sum-exp of each row of the logits and the logits as they were; the
  operations after it read those two arrays and the three other arguments as launched.
-/
import proofs.«406159_j25486335934803_3_alg».proof.Proof.KernelValue
import proofs.«406159_j25486335934803_3_alg».proof.Proof.KernelTail

noncomputable section

open Idealize.ShloMosaic Idealize.ShloMosaic.TcCoe Idealize.SL.Sem
open Idealize.ShloMosaic.Pipeline (Dat)

namespace Cert.KernelIdeal.LseRun

open Cert.KernelIdeal Cert.KernelIdeal.Gen Cert.KernelIdeal.LseValue Cert.KernelIdeal.LseTail Cert.Tail

variable (m : (ℓ : Loc nD τ sig) → Buf (Elt Ideal) ℓ) (ρ : Dev nD → PrngReg)

/-- After the region the result array holds the rows' log-sum-exp, -/
theorem rd_out (c : Dev nD) (hX : ∀ p, ∃ r : ℝ, logits m c p = (r : EReal)) : rd m c main_call0_v0 = lseArr m c :=
  (Pipeline.withArrays_arr spec0 launch0.win.arr_inj c _ _ 1).trans (final_lse m c hX)

/-- the logits are as launched (the region only reads them), -/
theorem rd_arg0 (c : Dev nD) : rd m c main_arg0 = m ((c : Thread nD τ).loc main_arg0) :=
  (Pipeline.withArrays_arr spec0 launch0.win.arr_inj c _ _ 0).trans
    (((dats m 0 c).arrAt_in 0 rfl _).trans ((A_eq m c 0).trans (V_main_arg0 m c)))

/-- and so are the three arguments the region does not touch. -/
theorem rd_arg1 (c : Dev nD) : rd m c main_arg1 = m ((c : Thread nD τ).loc main_arg1) :=
  (Pipeline.withArrays_of_ne _ c (V0 m c) _ main_arg1 (by decide : ∀ w, Pipeline.arrRef spec0 w ≠ main_arg1)).trans
    (V_main_arg1 m c)
theorem rd_arg2 (c : Dev nD) : rd m c main_arg2 = m ((c : Thread nD τ).loc main_arg2) :=
  (Pipeline.withArrays_of_ne _ c (V0 m c) _ main_arg2 (by decide : ∀ w, Pipeline.arrRef spec0 w ≠ main_arg2)).trans
    (V_main_arg2 m c)
theorem rd_arg3 (c : Dev nD) : rd m c main_arg3 = m ((c : Thread nD τ).loc main_arg3) :=
  (Pipeline.withArrays_of_ne _ c (V0 m c) _ main_arg3 (by decide : ∀ w, Pipeline.arrRef spec0 w ≠ main_arg3)).trans
    (V_main_arg3 m c)

/-- The kernel's result as a function of the argument arrays. -/
def result (c : Dev nD) : Buf (Elt Ideal) ((c : Thread nD τ).loc main_v0) :=
  tailFn (subf (shapeCast Cert.ReferenceIdeal.S8192 (lseArr m c) Cert.ReferenceIdeal.Gen.shapeCasts_S8192x1_S8192)
      (pick (m ((c : Thread nD τ).loc main_arg0)) (m ((c : Thread nD τ).loc main_arg1))))
    (m ((c : Thread nD τ).loc main_arg1)) (m ((c : Thread nD τ).loc main_arg2)) (m ((c : Thread nD τ).loc main_arg3))

/-- THE RUN: under the finiteness of the logits every weakly fair execution ends with the result buffer at `result`
    and the arguments unchanged. -/
theorem run (hX : ∀ c p, ∃ r : ℝ, logits m c p = (r : EReal)) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v0 (Pipeline.mem_restRefs_of main_v0 (by decide) (by decide))).trans ((tail_eq m c).trans (by
        unfold result
        rw [rd_out m c (hX c), rd_arg0, rd_arg1, rd_arg2, rd_arg3])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LseRun

end
-- ==== Proof.RefRun.lean ====
/- The reference's run, read over the stages `val_<buffer>` of the reference.
   The reference's @main is a straight line of 63 host operations (the two called functions' operations standing at
   their call sites). From any buffer contents, the contents after the line are the fold of the operations' results,
   and the fold of a concatenation is the fold of the second part over the fold of the first. The line is cut into
   eight stretches. For each stretch, over ANY incoming contents that hold the four arguments and the stages a later
   operation still reads, the stretch leaves those as they were and writes its last buffer at that buffer's stage:
   each operation's result is its function applied to its operands' contents; a literal reference's type is its
   value's type by computation, so a value moved to the buffer's type or back is the value; and the stage definitions
   unfold to the same applications. Chaining the eight facts gives the result buffer `main_v21` at `val_main_v21` of
   the arguments' contents and the arguments unchanged, from any contents; at the launch contents, the run theorem of
   a straight line states it of every weakly fair execution. -/
import proofs.«406159_j25486335934803_3_alg».proof.Proof.Gen.ReferenceIdeal
import proofs.«406159_j25486335934803_3_alg».proof.Proof.RefRead
import Idealize.ShloMosaic.Lib.StableHlo.Run
import Idealize.ShloMosaic.Lib.Pipeline.Frame

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadP

/-- A value moved to a buffer's type and back along the same equation is the value. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-! A literal reference's type is its value's type by computation, so moving a value to the buffer's type, or back, is the
identity; stated once per reference, on an arbitrary value. -/

theorem toBuf_main_call0_cst (v : (⟨S_, .f32⟩ : BufTy).Contents (Elt F)) :
    (TRef.of (sig := sig) (T := ⟨S_, .f32⟩) main_call0_cst).toBuf (Val := Elt F) v = v := rfl
theorem ofBuf_main_call0_cst (v : (main_call0_cst : Ref sig .tc).ty.Contents (Elt F)) :
    (TRef.of (sig := sig) (T := ⟨S_, .f32⟩) main_call0_cst).ofBuf (Val := Elt F) v = v := rfl
theorem toBuf_main_arg0 (v : (⟨S8192x32000, .f32⟩ : BufTy).Contents (Elt F)) :
    (TRef.of (sig := sig) (T := ⟨S8192x32000, .f32⟩) main_arg0).toBuf (Val := Elt F) v = v := rfl
theorem ofBuf_main_arg0 (v : (main_arg0 : Ref sig .tc).ty.Contents (Elt F)) :
    (TRef.of (sig := sig) (T := ⟨S8192x32000, .f32⟩) main_arg0).ofBuf (Val := Elt F) v = v := rfl
theorem toBuf_main_call0_v0 (v : (⟨S8192, .f32⟩ : BufTy).Contents (Elt F)) :
    (TRef.of (sig := sig) (T := ⟨S8192, .f32⟩) main_call0_v0).toBuf (Val := Elt F) v = v := rfl
theorem ofBuf_main_call0_v0 (v : (main_call0_v0 : Ref sig .tc).ty.Contents (Elt F)) :
    (TRef.of (sig := sig) (T := ⟨S8192, .f32⟩) main_call0_v0).ofBuf (Val := Elt F) v = v := rfl
theorem toBuf_main_call0_cst_0 (v : (⟨S_, .f32⟩ : BufTy).Contents (Elt F)) :
    (TRef.of (sig := sig) (T := ⟨S_, .f32⟩) main_call0_cst_0).toBuf (Val := Elt F) v = v := rfl
theorem ofBuf_main_call0_cst_0 (v : (main_call0_cst_0 : Ref sig .tc).ty.Contents (Elt F)) :
    (TRef.of (sig := sig) (T := ⟨S_, .f32⟩) main_call0_cst_0).ofBuf (Val := Elt F) v = v := rfl
theorem toBuf_main_call0_v1 (v : (⟨S8192, .f32⟩ : BufTy).Contents (Elt F)) :
    (TRef.of (sig := sig) (T := ⟨S8192, .f32⟩) main_call0_v1).toBuf (Val := Elt F) v = v := rfl
theorem ofBuf_main_call0_v1 (v : (main_call0_v1 : Ref sig .tc).ty.Contents (Elt F)) :
    (TRef.of (sig := sig) (T := ⟨S8192, .f32⟩) main_call0_v1).ofBuf (Val := Elt F) v = v := rfl
theorem toBuf_main_call0_v2 (v : (⟨S8192, .f32⟩ : BufTy).Contents (Elt F)) :
    (TRef.of (sig := sig) (T := ⟨S8192, .f32⟩) main_call0_v2).toBuf (Val := Elt F) v = v := rfl
theorem ofBuf_main_call0_v2 (v : (main_call0_v2 : Ref sig .tc).ty.Contents (Elt F)) :
    (TRef.of (sig := sig) (T := ⟨S8192, .f32⟩) main_call0_v2).ofBuf (Val := Elt F) v = v := rfl
theorem toBuf_main_call0_v3 (v : (⟨S8192x1, .f32⟩ : BufTy).Contents (Elt F)) :
    (TRef.of (sig := sig) (T := ⟨S8192x1, .f32⟩) main_call0_v3).toBuf (Val := Elt F) v = v := rfl
theorem ofBuf_main_call0_v3 (v : (main_call0_v3 : Ref sig .tc).ty.Contents (Elt F)) :
    (TRef.of (sig := sig) (T := ⟨S8192x1, .f32⟩) main_call0_v3).ofBuf (Val := Elt F) v = v := rfl
theorem toBuf_main_call0_v4 (v : (⟨S8192x32000, .f32⟩ : BufTy).Contents (Elt F)) :
    (TRef.of (sig := sig) (T := ⟨S8192x32000, .f32⟩) main_call0_v4).toBuf (Val := Elt F) v = v := rfl
theorem ofBuf_main_call0_v4 (v : (main_call0_v4 : Ref sig .tc).ty.Contents (Elt F)) :
    (TRef.of (sig := sig) (T := ⟨S8192x32000, .f32⟩) main_call0_v4).ofBuf (Val := Elt F) v = v := rfl
theorem toBuf_main_call0_v5 (v : (⟨S8192x32000, .f32⟩ : BufTy).Contents (Elt F)) :
    (TRef.of (sig := sig) (T := ⟨S8192x32000, .f32⟩) main_call0_v5).toBuf (Val := Elt F) v = v := rfl
theorem ofBuf_main_call0_v5 (v : (main_call0_v5 : Ref sig .tc).ty.Contents (Elt F)) :
    (TRef.of (sig := sig) (T := ⟨S8192x32000, .f32⟩) main_call0_v5).ofBuf (Val := Elt F) v = v := rfl
theorem toBuf_main_call0_v6 (v : (⟨S8192x32000, .f32⟩ : BufTy).Contents (Elt F)) :
    (TRef.of (sig := sig) (T := ⟨S8192x32000, .f32⟩) main_call0_v6).toBuf (Val := Elt F) v = v := rfl
theorem ofBuf_main_call0_v6 (v : (main_call0_v6 : Ref sig .tc).ty.Contents (Elt F)) :
    (TRef.of (sig := sig) (T := ⟨S8192x32000, .f32⟩) main_call0_v6).ofBuf (Val := Elt F) v = v := rfl
theorem toBuf_main_call0_cst_1 (v : (⟨S_, .f32⟩ : BufTy).Contents (Elt F)) :
    (TRef.of (sig := sig) (T := ⟨S_, .f32⟩) main_call0_cst_1).toBuf (Val := Elt F) v = v := rfl
theorem ofBuf_main_call0_cst_1 (v : (main_call0_cst_1 : Ref sig .tc).ty.Contents (Elt F)) :
    (TRef.of (sig := sig) (T := ⟨S_, .f32⟩) main_call0_cst_1).ofBuf (Val := Elt F) v = v := rfl
theorem toBuf_main_call0_v7 (v : (⟨S8192, .f32⟩ : BufTy).Contents (Elt F)) :
    (TRef.of (sig := sig) (T := ⟨S8192, .f32⟩) main_call0_v7).toBuf (Val := Elt F) v = v := rfl
theorem ofBuf_main_call0_v7 (v : (main_call0_v7 : Ref sig .tc).ty.Contents (Elt F)) :
    (TRef.of (sig := sig) (T := ⟨S8192, .f32⟩) main_call0_v7).ofBuf (Val := Elt F) v = v := rfl
theorem toBuf_main_call0_v8 (v : (⟨S8192x1, .f32⟩ : BufTy).Contents (Elt F)) :
    (TRef.of (sig := sig) (T := ⟨S8192x1, .f32⟩) main_call0_v8).toBuf (Val := Elt F) v = v := rfl
theorem ofBuf_main_call0_v8 (v : (main_call0_v8 : Ref sig .tc).ty.Contents (Elt F)) :
    (TRef.of (sig := sig) (T := ⟨S8192x1, .f32⟩) main_call0_v8).ofBuf (Val := Elt F) v = v := rfl
theorem toBuf_main_call0_v9 (v : (⟨S8192x1, .f32⟩ : BufTy).Contents (Elt F)) :
    (TRef.of (sig := sig) (T := ⟨S8192x1, .f32⟩) main_call0_v9).toBuf (Val := Elt F) v = v := rfl
theorem ofBuf_main_call0_v9 (v : (main_call0_v9 : Ref sig .tc).ty.Contents (Elt F)) :
    (TRef.of (sig := sig) (T := ⟨S8192x1, .f32⟩) main_call0_v9).ofBuf (Val := Elt F) v = v := rfl
theorem toBuf_main_call0_v10 (v : (⟨S8192x32000, .f32⟩ : BufTy).Contents (Elt F)) :
    (TRef.of (sig := sig) (T := ⟨S8192x32000, .f32⟩) main_call0_v10).toBuf (Val := Elt F) v = v := rfl
theorem ofBuf_main_call0_v10 (v : (main_call0_v10 : Ref sig .tc).ty.Contents (Elt F)) :
    (TRef.of (sig := sig) (T := ⟨S8192x32000, .f32⟩) main_call0_v10).ofBuf (Val := Elt F) v = v := rfl
theorem toBuf_main_v0 (v : (⟨S8192x32000, .f32⟩ : BufTy).Contents (Elt F)) :
    (TRef.of (sig := sig) (T := ⟨S8192x32000, .f32⟩) main_v0).toBuf (Val := Elt F) v = v := rfl
theorem ofBuf_main_v0 (v : (main_v0 : Ref sig .tc).ty.Contents (Elt F)) :
    (TRef.of (sig := sig) (T := ⟨S8192x32000, .f32⟩) main_v0).ofBuf (Val := Elt F) v = v := rfl
theorem toBuf_main_call1_c (v : (⟨S_, .i32⟩ : BufTy).Contents (Elt F)) :
    (TRef.of (sig := sig) (T := ⟨S_, .i32⟩) main_call1_c).toBuf (Val := Elt F) v = v := rfl
theorem ofBuf_main_call1_c (v : (main_call1_c : Ref sig .tc).ty.Contents (Elt F)) :
    (TRef.of (sig := sig) (T := ⟨S_, .i32⟩) main_call1_c).ofBuf (Val := Elt F) v = v := rfl
theorem toBuf_main_call1_v0 (v : (⟨S8192x1, .i32⟩ : BufTy).Contents (Elt F)) :
    (TRef.of (sig := sig) (T := ⟨S8192x1, .i32⟩) main_call1_v0).toBuf (Val := Elt F) v = v := rfl
theorem ofBuf_main_call1_v0 (v : (main_call1_v0 : Ref sig .tc).ty.Contents (Elt F)) :
    (TRef.of (sig := sig) (T := ⟨S8192x1, .i32⟩) main_call1_v0).ofBuf (Val := Elt F) v = v := rfl
theorem toBuf_main_v1 (v : (⟨S8192x1, .i32⟩ : BufTy).Contents (Elt F)) :
    (TRef.of (sig := sig) (T := ⟨S8192x1, .i32⟩) main_v1).toBuf (Val := Elt F) v = v := rfl
theorem ofBuf_main_v1 (v : (main_v1 : Ref sig .tc).ty.Contents (Elt F)) :
    (TRef.of (sig := sig) (T := ⟨S8192x1, .i32⟩) main_v1).ofBuf (Val := Elt F) v = v := rfl
theorem toBuf_main_call1_v1 (v : (⟨S8192x1, .i1⟩ : BufTy).Contents (Elt F)) :
    (TRef.of (sig := sig) (T := ⟨S8192x1, .i1⟩) main_call1_v1).toBuf (Val := Elt F) v = v := rfl
theorem ofBuf_main_call1_v1 (v : (main_call1_v1 : Ref sig .tc).ty.Contents (Elt F)) :
    (TRef.of (sig := sig) (T := ⟨S8192x1, .i1⟩) main_call1_v1).ofBuf (Val := Elt F) v = v := rfl
theorem toBuf_main_call1_c_0 (v : (⟨S_, .i32⟩ : BufTy).Contents (Elt F)) :
    (TRef.of (sig := sig) (T := ⟨S_, .i32⟩) main_call1_c_0).toBuf (Val := Elt F) v = v := rfl
theorem ofBuf_main_call1_c_0 (v : (main_call1_c_0 : Ref sig .tc).ty.Contents (Elt F)) :
    (TRef.of (sig := sig) (T := ⟨S_, .i32⟩) main_call1_c_0).ofBuf (Val := Elt F) v = v := rfl
theorem toBuf_main_call1_v2 (v : (⟨S8192x1, .i32⟩ : BufTy).Contents (Elt F)) :
    (TRef.of (sig := sig) (T := ⟨S8192x1, .i32⟩) main_call1_v2).toBuf (Val := Elt F) v = v := rfl
theorem ofBuf_main_call1_v2 (v : (main_call1_v2 : Ref sig .tc).ty.Contents (Elt F)) :
    (TRef.of (sig := sig) (T := ⟨S8192x1, .i32⟩) main_call1_v2).ofBuf (Val := Elt F) v = v := rfl
theorem toBuf_main_call1_v3 (v : (⟨S8192x1, .i32⟩ : BufTy).Contents (Elt F)) :
    (TRef.of (sig := sig) (T := ⟨S8192x1, .i32⟩) main_call1_v3).toBuf (Val := Elt F) v = v := rfl
theorem ofBuf_main_call1_v3 (v : (main_call1_v3 : Ref sig .tc).ty.Contents (Elt F)) :
    (TRef.of (sig := sig) (T := ⟨S8192x1, .i32⟩) main_call1_v3).ofBuf (Val := Elt F) v = v := rfl
theorem toBuf_main_call1_v4 (v : (⟨S8192x1, .i32⟩ : BufTy).Contents (Elt F)) :
    (TRef.of (sig := sig) (T := ⟨S8192x1, .i32⟩) main_call1_v4).toBuf (Val := Elt F) v = v := rfl
theorem ofBuf_main_call1_v4 (v : (main_call1_v4 : Ref sig .tc).ty.Contents (Elt F)) :
    (TRef.of (sig := sig) (T := ⟨S8192x1, .i32⟩) main_call1_v4).ofBuf (Val := Elt F) v = v := rfl
theorem toBuf_main_call1_v5 (v : (⟨S8192x1x1, .i32⟩ : BufTy).Contents (Elt F)) :
    (TRef.of (sig := sig) (T := ⟨S8192x1x1, .i32⟩) main_call1_v5).toBuf (Val := Elt F) v = v := rfl
theorem ofBuf_main_call1_v5 (v : (main_call1_v5 : Ref sig .tc).ty.Contents (Elt F)) :
    (TRef.of (sig := sig) (T := ⟨S8192x1x1, .i32⟩) main_call1_v5).ofBuf (Val := Elt F) v = v := rfl
theorem toBuf_main_call1_c_1 (v : (⟨S1, .i32⟩ : BufTy).Contents (Elt F)) :
    (TRef.of (sig := sig) (T := ⟨S1, .i32⟩) main_call1_c_1).toBuf (Val := Elt F) v = v := rfl
theorem ofBuf_main_call1_c_1 (v : (main_call1_c_1 : Ref sig .tc).ty.Contents (Elt F)) :
    (TRef.of (sig := sig) (T := ⟨S1, .i32⟩) main_call1_c_1).ofBuf (Val := Elt F) v = v := rfl
theorem toBuf_main_call1_c_2 (v : (⟨S_, .i32⟩ : BufTy).Contents (Elt F)) :
    (TRef.of (sig := sig) (T := ⟨S_, .i32⟩) main_call1_c_2).toBuf (Val := Elt F) v = v := rfl
theorem ofBuf_main_call1_c_2 (v : (main_call1_c_2 : Ref sig .tc).ty.Contents (Elt F)) :
    (TRef.of (sig := sig) (T := ⟨S_, .i32⟩) main_call1_c_2).ofBuf (Val := Elt F) v = v := rfl
theorem toBuf_main_call1_v6 (v : (⟨S8192x1x1, .i32⟩ : BufTy).Contents (Elt F)) :
    (TRef.of (sig := sig) (T := ⟨S8192x1x1, .i32⟩) main_call1_v6).toBuf (Val := Elt F) v = v := rfl
theorem ofBuf_main_call1_v6 (v : (main_call1_v6 : Ref sig .tc).ty.Contents (Elt F)) :
    (TRef.of (sig := sig) (T := ⟨S8192x1x1, .i32⟩) main_call1_v6).ofBuf (Val := Elt F) v = v := rfl
theorem toBuf_main_call1_v7 (v : (⟨S8192x1x1, .i1⟩ : BufTy).Contents (Elt F)) :
    (TRef.of (sig := sig) (T := ⟨S8192x1x1, .i1⟩) main_call1_v7).toBuf (Val := Elt F) v = v := rfl
theorem ofBuf_main_call1_v7 (v : (main_call1_v7 : Ref sig .tc).ty.Contents (Elt F)) :
    (TRef.of (sig := sig) (T := ⟨S8192x1x1, .i1⟩) main_call1_v7).ofBuf (Val := Elt F) v = v := rfl
theorem toBuf_main_call1_v8 (v : (⟨S1x1x1, .i32⟩ : BufTy).Contents (Elt F)) :
    (TRef.of (sig := sig) (T := ⟨S1x1x1, .i32⟩) main_call1_v8).toBuf (Val := Elt F) v = v := rfl
theorem ofBuf_main_call1_v8 (v : (main_call1_v8 : Ref sig .tc).ty.Contents (Elt F)) :
    (TRef.of (sig := sig) (T := ⟨S1x1x1, .i32⟩) main_call1_v8).ofBuf (Val := Elt F) v = v := rfl
theorem toBuf_main_call1_v9 (v : (⟨S8192x1x1, .i32⟩ : BufTy).Contents (Elt F)) :
    (TRef.of (sig := sig) (T := ⟨S8192x1x1, .i32⟩) main_call1_v9).toBuf (Val := Elt F) v = v := rfl
theorem ofBuf_main_call1_v9 (v : (main_call1_v9 : Ref sig .tc).ty.Contents (Elt F)) :
    (TRef.of (sig := sig) (T := ⟨S8192x1x1, .i32⟩) main_call1_v9).ofBuf (Val := Elt F) v = v := rfl
theorem toBuf_main_call1_v10 (v : (⟨S8192x1x1, .i1⟩ : BufTy).Contents (Elt F)) :
    (TRef.of (sig := sig) (T := ⟨S8192x1x1, .i1⟩) main_call1_v10).toBuf (Val := Elt F) v = v := rfl
theorem ofBuf_main_call1_v10 (v : (main_call1_v10 : Ref sig .tc).ty.Contents (Elt F)) :
    (TRef.of (sig := sig) (T := ⟨S8192x1x1, .i1⟩) main_call1_v10).ofBuf (Val := Elt F) v = v := rfl
theorem toBuf_main_call1_v11 (v : (⟨S8192x1x1, .i1⟩ : BufTy).Contents (Elt F)) :
    (TRef.of (sig := sig) (T := ⟨S8192x1x1, .i1⟩) main_call1_v11).toBuf (Val := Elt F) v = v := rfl
theorem ofBuf_main_call1_v11 (v : (main_call1_v11 : Ref sig .tc).ty.Contents (Elt F)) :
    (TRef.of (sig := sig) (T := ⟨S8192x1x1, .i1⟩) main_call1_v11).ofBuf (Val := Elt F) v = v := rfl
theorem toBuf_main_call1_c_3 (v : (⟨S_, .i1⟩ : BufTy).Contents (Elt F)) :
    (TRef.of (sig := sig) (T := ⟨S_, .i1⟩) main_call1_c_3).toBuf (Val := Elt F) v = v := rfl
theorem ofBuf_main_call1_c_3 (v : (main_call1_c_3 : Ref sig .tc).ty.Contents (Elt F)) :
    (TRef.of (sig := sig) (T := ⟨S_, .i1⟩) main_call1_c_3).ofBuf (Val := Elt F) v = v := rfl
theorem toBuf_main_call1_v12 (v : (⟨S8192x1, .i1⟩ : BufTy).Contents (Elt F)) :
    (TRef.of (sig := sig) (T := ⟨S8192x1, .i1⟩) main_call1_v12).toBuf (Val := Elt F) v = v := rfl
theorem ofBuf_main_call1_v12 (v : (main_call1_v12 : Ref sig .tc).ty.Contents (Elt F)) :
    (TRef.of (sig := sig) (T := ⟨S8192x1, .i1⟩) main_call1_v12).ofBuf (Val := Elt F) v = v := rfl
theorem toBuf_main_call1_v13 (v : (⟨S8192x1, .f32⟩ : BufTy).Contents (Elt F)) :
    (TRef.of (sig := sig) (T := ⟨S8192x1, .f32⟩) main_call1_v13).toBuf (Val := Elt F) v = v := rfl
theorem ofBuf_main_call1_v13 (v : (main_call1_v13 : Ref sig .tc).ty.Contents (Elt F)) :
    (TRef.of (sig := sig) (T := ⟨S8192x1, .f32⟩) main_call1_v13).ofBuf (Val := Elt F) v = v := rfl
theorem toBuf_main_call1_cst (v : (⟨S_, .f32⟩ : BufTy).Contents (Elt F)) :
    (TRef.of (sig := sig) (T := ⟨S_, .f32⟩) main_call1_cst).toBuf (Val := Elt F) v = v := rfl
theorem ofBuf_main_call1_cst (v : (main_call1_cst : Ref sig .tc).ty.Contents (Elt F)) :
    (TRef.of (sig := sig) (T := ⟨S_, .f32⟩) main_call1_cst).ofBuf (Val := Elt F) v = v := rfl
theorem toBuf_main_call1_v14 (v : (⟨S8192x1, .f32⟩ : BufTy).Contents (Elt F)) :
    (TRef.of (sig := sig) (T := ⟨S8192x1, .f32⟩) main_call1_v14).toBuf (Val := Elt F) v = v := rfl
theorem ofBuf_main_call1_v14 (v : (main_call1_v14 : Ref sig .tc).ty.Contents (Elt F)) :
    (TRef.of (sig := sig) (T := ⟨S8192x1, .f32⟩) main_call1_v14).ofBuf (Val := Elt F) v = v := rfl
theorem toBuf_main_v2 (v : (⟨S8192x1, .f32⟩ : BufTy).Contents (Elt F)) :
    (TRef.of (sig := sig) (T := ⟨S8192x1, .f32⟩) main_v2).toBuf (Val := Elt F) v = v := rfl
theorem ofBuf_main_v2 (v : (main_v2 : Ref sig .tc).ty.Contents (Elt F)) :
    (TRef.of (sig := sig) (T := ⟨S8192x1, .f32⟩) main_v2).ofBuf (Val := Elt F) v = v := rfl

/-- @main's 63 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1),
    TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf,
    unary main_arg1 main_v1 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v1) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v1) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v1) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_),
    TRef.binary (TRef.of (T := ⟨S8192x32000, .f32⟩) main_v0) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v2) select,
    reshape main_v2 main_v3 rfl shapeCasts_S8192x1_S8192,
    unary main_v3 main_v4 (Host.negf : (⟨S8192, .f32⟩ : BufTy).Contents (Elt F) → (⟨S8192, .f32⟩ : BufTy).Contents (Elt F)),
    nullary main_c (constantI S_ 32 0#32),
    unary main_c main_v5 (broadcastInDim S8192 ![] bcast_S_S8192 : (⟨S_, .i32⟩ : BufTy).Contents (Elt F) → (⟨S8192, .i32⟩ : BufTy).Contents (Elt F)),
    binary main_arg2 main_v5 main_v6 (cmpi .slt : (⟨S8192, .i32⟩ : BufTy).Contents (Elt F) → (⟨S8192, .i32⟩ : BufTy).Contents (Elt F) → (⟨S8192, .i1⟩ : BufTy).Contents (Elt F)),
    nullary main_c_0 (constantI S_ 32 100#32),
    unary main_c_0 main_v7 (broadcastInDim S8192 ![] bcast_S_S8192 : (⟨S_, .i32⟩ : BufTy).Contents (Elt F) → (⟨S8192, .i32⟩ : BufTy).Contents (Elt F)),
    binary main_arg2 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_arg2 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v10 (broadcastInDim S8192 ![] bcast_S_S8192 : (⟨S_, .i32⟩ : BufTy).Contents (Elt F) → (⟨S8192, .i32⟩ : BufTy).Contents (Elt F)),
    binary main_arg1 main_v10 main_v11 (cmpi .slt : (⟨S8192, .i32⟩ : BufTy).Contents (Elt F) → (⟨S8192, .i32⟩ : BufTy).Contents (Elt F) → (⟨S8192, .i1⟩ : BufTy).Contents (Elt F)),
    nullary main_c_2 (constantI S_ 32 32000#32),
    unary main_c_2 main_v12 (broadcastInDim S8192 ![] bcast_S_S8192 : (⟨S_, .i32⟩ : BufTy).Contents (Elt F) → (⟨S8192, .i32⟩ : BufTy).Contents (Elt F)),
    binary main_arg1 main_v12 main_v13 (addi : (⟨S8192, .i32⟩ : BufTy).Contents (Elt F) → (⟨S8192, .i32⟩ : BufTy).Contents (Elt F) → (⟨S8192, .i32⟩ : BufTy).Contents (Elt F)),
    ternary main_v11 main_v13 main_arg1 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v15 (broadcastInDim S8192x1 ![0] bcast_S8192_S8192x1_0 : (⟨S8192, .i32⟩ : BufTy).Contents (Elt F) → (⟨S8192x1, .i32⟩ : BufTy).Contents (Elt F)),
    unary main_v14 main_v16 (broadcastInDim S8192x1 ![0] bcast_S8192_S8192x1_0 : (⟨S8192, .i32⟩ : BufTy).Contents (Elt F) → (⟨S8192x1, .i32⟩ : BufTy).Contents (Elt F)),
    binary main_v15 main_v16 main_v17 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_arg3 main_v17 main_v18 ((fun x i => Host.gather gather_S100x32000_S8192x2_S8192_n_01_n_n_01_1_11 x i) : (⟨S100x32000, .f32⟩ : BufTy).Contents (Elt F) → (⟨S8192x2, .i32⟩ : BufTy).Contents (Elt F) → (⟨S8192, .f32⟩ : BufTy).Contents (Elt F)),
    binary main_v4 main_v18 main_v19 (mulf : (⟨S8192, .f32⟩ : BufTy).Contents (Elt F) → (⟨S8192, .f32⟩ : BufTy).Contents (Elt F) → (⟨S8192, .f32⟩ : BufTy).Contents (Elt F)),
    nullary main_cst (constant S_ .f32 0x00000000#32),
    binary main_v19 main_cst main_v20 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_3 (constant S_ .f32 0x46000000#32),
    binary main_v20 main_cst_3 main_v21 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., binary_bufs_sub .., nullary_bufs_sub .., binary_bufs_sub ..⟩

/-- Operations 1 to 7 of the line. -/
def opsA : List (HloOp τ sig (Elt F)) :=
  [ TRef.nullary (TRef.of (T := ⟨S_, .f32⟩) main_call0_cst) (constant S_ .f32 0xFF800000#32),
    TRef.binary (TRef.of (T := ⟨S8192x32000, .f32⟩) main_arg0) (TRef.of (T := ⟨S_, .f32⟩) main_call0_cst) (TRef.of (T := ⟨S8192, .f32⟩) main_call0_v0) (fun x v => Host.reduce FloatOps.maximumf x v reducesTo_S8192x32000_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x32000, .f32⟩) main_call0_v4) (broadcastInDim S8192x32000 ![0, 1] bcast_S8192x1_S8192x32000_0_1) ]

set_option maxRecDepth 8192 in
/-- Over any contents `W` that hold the arguments and the stages still to be read, operations 1 to 7 leave them as they were
    and write `main_call0_v4` at its stage `val_main_call0_v4`. -/
theorem stA (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3) :
    after opsA W (Proc.devRef .tc main_arg0) = x0
    ∧ after opsA W (Proc.devRef .tc main_arg1) = x1
    ∧ after opsA W (Proc.devRef .tc main_arg2) = x2
    ∧ after opsA W (Proc.devRef .tc main_arg3) = x3
    ∧ after opsA W (Proc.devRef .tc main_call0_v4) = val_main_call0_v4 x0 := by
  refine ⟨?_, ?_, ?_, ?_, ?_⟩
  · unfold opsA; after_results_simp; exact a0
  · unfold opsA; after_results_simp; exact a1
  · unfold opsA; after_results_simp; exact a2
  · unfold opsA; after_results_simp; exact a3
  · unfold opsA; after_results_simp
    (try rw [a0]); (try rw [a1]); (try rw [a2]); (try rw [a3])
    try simp only [ofBuf_toBuf]
    try simp only [toBuf_main_call0_cst, ofBuf_main_call0_cst, toBuf_main_arg0, ofBuf_main_arg0, toBuf_main_call0_v0, ofBuf_main_call0_v0, toBuf_main_call0_cst_0, ofBuf_main_call0_cst_0, toBuf_main_call0_v1, ofBuf_main_call0_v1, toBuf_main_call0_v2, ofBuf_main_call0_v2, toBuf_main_call0_v3, ofBuf_main_call0_v3, toBuf_main_call0_v4, ofBuf_main_call0_v4]
    unfold val_main_call0_v4 val_main_call0_v3 val_main_call0_v2 val_main_call0_v1 val_main_call0_cst_0 val_main_call0_v0 val_main_call0_cst
    rfl

/-- Operations 8 to 15 of the line. -/
def opsB : List (HloOp τ sig (Elt F)) :=
  [ TRef.binary (TRef.of (T := ⟨S8192x32000, .f32⟩) main_arg0) (TRef.of (T := ⟨S8192x32000, .f32⟩) main_call0_v4) (TRef.of (T := ⟨S8192x32000, .f32⟩) main_call0_v5) subf,
    TRef.unary (TRef.of (T := ⟨S8192x32000, .f32⟩) main_call0_v5) (TRef.of (T := ⟨S8192x32000, .f32⟩) main_call0_v6) Host.exp,
    TRef.nullary (TRef.of (T := ⟨S_, .f32⟩) main_call0_cst_1) (constant S_ .f32 0x00000000#32),
    TRef.binary (TRef.of (T := ⟨S8192x32000, .f32⟩) main_call0_v6) (TRef.of (T := ⟨S_, .f32⟩) main_call0_cst_1) (TRef.of (T := ⟨S8192, .f32⟩) main_call0_v7) (fun x v => Host.reduceAdd x v reducesTo_S8192x32000_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x32000, .f32⟩) main_call0_v10) (broadcastInDim S8192x32000 ![0, 1] bcast_S8192x1_S8192x32000_0_1),
    TRef.binary (TRef.of (T := ⟨S8192x32000, .f32⟩) main_call0_v5) (TRef.of (T := ⟨S8192x32000, .f32⟩) main_call0_v10) (TRef.of (T := ⟨S8192x32000, .f32⟩) main_v0) subf ]

set_option maxRecDepth 8192 in
/-- Over any contents `W` that hold the arguments and the stages still to be read, operations 8 to 15 leave them as they were
    and write `main_v0` at its stage `val_main_v0`. -/
theorem stB (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_call0_v4 : W (Proc.devRef .tc main_call0_v4) = val_main_call0_v4 x0) :
    after opsB W (Proc.devRef .tc main_arg0) = x0
    ∧ after opsB W (Proc.devRef .tc main_arg1) = x1
    ∧ after opsB W (Proc.devRef .tc main_arg2) = x2
    ∧ after opsB W (Proc.devRef .tc main_arg3) = x3
    ∧ after opsB W (Proc.devRef .tc main_v0) = val_main_v0 x0 := by
  refine ⟨?_, ?_, ?_, ?_, ?_⟩
  · unfold opsB; after_results_simp; exact a0
  · unfold opsB; after_results_simp; exact a1
  · unfold opsB; after_results_simp; exact a2
  · unfold opsB; after_results_simp; exact a3
  · unfold opsB; after_results_simp
    (try rw [a0]); (try rw [a1]); (try rw [a2]); (try rw [a3]); (try rw [h_call0_v4])
    try simp only [ofBuf_toBuf]
    try simp only [toBuf_main_arg0, ofBuf_main_arg0, toBuf_main_call0_v4, ofBuf_main_call0_v4, toBuf_main_call0_v5, ofBuf_main_call0_v5, toBuf_main_call0_v6, ofBuf_main_call0_v6, toBuf_main_call0_cst_1, ofBuf_main_call0_cst_1, toBuf_main_call0_v7, ofBuf_main_call0_v7, toBuf_main_call0_v8, ofBuf_main_call0_v8, toBuf_main_call0_v9, ofBuf_main_call0_v9, toBuf_main_call0_v10, ofBuf_main_call0_v10, toBuf_main_v0, ofBuf_main_v0]
    unfold val_main_v0 val_main_call0_v10 val_main_call0_v9 val_main_call0_v8 val_main_call0_v7 val_main_call0_cst_1 val_main_call0_v6 val_main_call0_v5
    rfl

/-- Operations 16 to 24 of the line. -/
def opsC : List (HloOp τ sig (Elt F)) :=
  [ unary main_arg1 main_v1 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x1, .i32⟩) main_call1_v0) (broadcastInDim S8192x1 ![] bcast_S_S8192x1),
    TRef.binary (TRef.of (T := ⟨S8192x1, .i32⟩) main_v1) (TRef.of (T := ⟨S8192x1, .i32⟩) main_call1_v0) (TRef.of (T := ⟨S8192x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S8192x1, .i32⟩) main_call1_v2) (broadcastInDim S8192x1 ![] bcast_S_S8192x1),
    TRef.binary (TRef.of (T := ⟨S8192x1, .i32⟩) main_v1) (TRef.of (T := ⟨S8192x1, .i32⟩) main_call1_v2) (TRef.of (T := ⟨S8192x1, .i32⟩) main_call1_v3) addi,
    TRef.ternary (TRef.of (T := ⟨S8192x1, .i1⟩) main_call1_v1) (TRef.of (T := ⟨S8192x1, .i32⟩) main_call1_v3) (TRef.of (T := ⟨S8192x1, .i32⟩) main_v1) (TRef.of (T := ⟨S8192x1, .i32⟩) main_call1_v4) select,
    TRef.reshape (TRef.of (T := ⟨S8192x1, .i32⟩) main_call1_v4) (TRef.of (T := ⟨S8192x1x1, .i32⟩) main_call1_v5) rfl shapeCasts_S8192x1_S8192x1x1 ]

set_option maxRecDepth 8192 in
/-- Over any contents `W` that hold the arguments and the stages still to be read, operations 16 to 24 leave them as they were
    and write `main_call1_v5` at its stage `val_main_call1_v5`. -/
theorem stC (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v0 : W (Proc.devRef .tc main_v0) = val_main_v0 x0) :
    after opsC W (Proc.devRef .tc main_arg0) = x0
    ∧ after opsC W (Proc.devRef .tc main_arg1) = x1
    ∧ after opsC W (Proc.devRef .tc main_arg2) = x2
    ∧ after opsC W (Proc.devRef .tc main_arg3) = x3
    ∧ after opsC W (Proc.devRef .tc main_v0) = val_main_v0 x0
    ∧ after opsC W (Proc.devRef .tc main_call1_v5) = val_main_call1_v5 x1 := by
  refine ⟨?_, ?_, ?_, ?_, ?_, ?_⟩
  · unfold opsC; after_results_simp; exact a0
  · unfold opsC; after_results_simp; exact a1
  · unfold opsC; after_results_simp; exact a2
  · unfold opsC; after_results_simp; exact a3
  · unfold opsC; after_results_simp; exact h_v0
  · unfold opsC; after_results_simp
    (try rw [a0]); (try rw [a1]); (try rw [a2]); (try rw [a3]); (try rw [h_v0])
    try simp only [ofBuf_toBuf]
    try simp only [toBuf_main_call1_c, ofBuf_main_call1_c, toBuf_main_call1_v0, ofBuf_main_call1_v0, toBuf_main_v1, ofBuf_main_v1, toBuf_main_call1_v1, ofBuf_main_call1_v1, toBuf_main_call1_c_0, ofBuf_main_call1_c_0, toBuf_main_call1_v2, ofBuf_main_call1_v2, toBuf_main_call1_v3, ofBuf_main_call1_v3, toBuf_main_call1_v4, ofBuf_main_call1_v4, toBuf_main_call1_v5, ofBuf_main_call1_v5]
    unfold val_main_call1_v5 val_main_call1_v4 val_main_call1_v3 val_main_call1_v2 val_main_call1_c_0 val_main_call1_v1 val_main_call1_v0 val_main_call1_c val_main_v1
    rfl

/-- Operations 25 to 34 of the line. -/
def opsD : List (HloOp τ sig (Elt F)) :=
  [ TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S8192x1x1, .i32⟩) main_call1_v6) (broadcastInDim S8192x1x1 ![] bcast_S_S8192x1x1),
    TRef.binary (TRef.of (T := ⟨S8192x1x1, .i32⟩) main_call1_v5) (TRef.of (T := ⟨S8192x1x1, .i32⟩) main_call1_v6) (TRef.of (T := ⟨S8192x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x1x1, .i32⟩) main_call1_v9) (broadcastInDim S8192x1x1 ![0, 1, 2] bcast_S1x1x1_S8192x1x1_0_1_2),
    TRef.binary (TRef.of (T := ⟨S8192x1x1, .i32⟩) main_call1_v5) (TRef.of (T := ⟨S8192x1x1, .i32⟩) main_call1_v9) (TRef.of (T := ⟨S8192x1x1, .i1⟩) main_call1_v10) (cmpi .sle),
    TRef.binary (TRef.of (T := ⟨S8192x1x1, .i1⟩) main_call1_v7) (TRef.of (T := ⟨S8192x1x1, .i1⟩) main_call1_v10) (TRef.of (T := ⟨S8192x1x1, .i1⟩) main_call1_v11) andi,
    TRef.nullary (TRef.of (T := ⟨S_, .i1⟩) main_call1_c_3) (constantI S_ 1 1#1),
    TRef.binary (TRef.of (T := ⟨S8192x1x1, .i1⟩) main_call1_v11) (TRef.of (T := ⟨S_, .i1⟩) main_call1_c_3) (TRef.of (T := ⟨S8192x1, .i1⟩) main_call1_v12) (fun x v => Host.reduce IntOp.andi x v reducesTo_S8192x1x1_S8192x1_d2 h_S_) ]

set_option maxRecDepth 8192 in
/-- Over any contents `W` that hold the arguments and the stages still to be read, operations 25 to 34 leave them as they were
    and write `main_call1_v12` at its stage `val_main_call1_v12`. -/
theorem stD (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v0 : W (Proc.devRef .tc main_v0) = val_main_v0 x0)
    (h_call1_v5 : W (Proc.devRef .tc main_call1_v5) = val_main_call1_v5 x1) :
    after opsD W (Proc.devRef .tc main_arg0) = x0
    ∧ after opsD W (Proc.devRef .tc main_arg1) = x1
    ∧ after opsD W (Proc.devRef .tc main_arg2) = x2
    ∧ after opsD W (Proc.devRef .tc main_arg3) = x3
    ∧ after opsD W (Proc.devRef .tc main_v0) = val_main_v0 x0
    ∧ after opsD W (Proc.devRef .tc main_call1_v5) = val_main_call1_v5 x1
    ∧ after opsD W (Proc.devRef .tc main_call1_v12) = val_main_call1_v12 x1 := by
  refine ⟨?_, ?_, ?_, ?_, ?_, ?_, ?_⟩
  · unfold opsD; after_results_simp; exact a0
  · unfold opsD; after_results_simp; exact a1
  · unfold opsD; after_results_simp; exact a2
  · unfold opsD; after_results_simp; exact a3
  · unfold opsD; after_results_simp; exact h_v0
  · unfold opsD; after_results_simp; exact h_call1_v5
  · unfold opsD; after_results_simp
    (try rw [a0]); (try rw [a1]); (try rw [a2]); (try rw [a3]); (try rw [h_v0]); (try rw [h_call1_v5])
    try simp only [ofBuf_toBuf]
    try simp only [toBuf_main_call1_c_1, ofBuf_main_call1_c_1, toBuf_main_call1_c_2, ofBuf_main_call1_c_2, toBuf_main_call1_v6, ofBuf_main_call1_v6, toBuf_main_call1_v5, ofBuf_main_call1_v5, toBuf_main_call1_v7, ofBuf_main_call1_v7, toBuf_main_call1_v8, ofBuf_main_call1_v8, toBuf_main_call1_v9, ofBuf_main_call1_v9, toBuf_main_call1_v10, ofBuf_main_call1_v10, toBuf_main_call1_v11, ofBuf_main_call1_v11, toBuf_main_call1_c_3, ofBuf_main_call1_c_3, toBuf_main_call1_v12, ofBuf_main_call1_v12]
    unfold val_main_call1_v12 val_main_call1_c_3 val_main_call1_v11 val_main_call1_v10 val_main_call1_v9 val_main_call1_v8 val_main_call1_v7 val_main_call1_v6 val_main_call1_c_2 val_main_call1_c_1
    rfl

/-- Operations 35 to 40 of the line. -/
def opsE : List (HloOp τ sig (Elt F)) :=
  [ TRef.binary (TRef.of (T := ⟨S8192x32000, .f32⟩) main_v0) (TRef.of (T := ⟨S8192x1x1, .i32⟩) main_call1_v5) (TRef.of (T := ⟨S8192x1, .f32⟩) main_call1_v13) (fun x i => Host.gather gather_S8192x32000_S8192x1x1_S8192x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S8192x1, .f32⟩) main_call1_v14) (broadcastInDim S8192x1 ![] bcast_S_S8192x1),
    TRef.ternary (TRef.of (T := ⟨S8192x1, .i1⟩) main_call1_v12) (TRef.of (T := ⟨S8192x1, .f32⟩) main_call1_v13) (TRef.of (T := ⟨S8192x1, .f32⟩) main_call1_v14) (TRef.of (T := ⟨S8192x1, .f32⟩) main_v2) select,
    reshape main_v2 main_v3 rfl shapeCasts_S8192x1_S8192,
    unary main_v3 main_v4 (Host.negf : (⟨S8192, .f32⟩ : BufTy).Contents (Elt F) → (⟨S8192, .f32⟩ : BufTy).Contents (Elt F)) ]

set_option maxRecDepth 8192 in
/-- Over any contents `W` that hold the arguments and the stages still to be read, operations 35 to 40 leave them as they were
    and write `main_v4` at its stage `val_main_v4`. -/
theorem stE (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v0 : W (Proc.devRef .tc main_v0) = val_main_v0 x0)
    (h_call1_v5 : W (Proc.devRef .tc main_call1_v5) = val_main_call1_v5 x1)
    (h_call1_v12 : W (Proc.devRef .tc main_call1_v12) = val_main_call1_v12 x1) :
    after opsE W (Proc.devRef .tc main_arg0) = x0
    ∧ after opsE W (Proc.devRef .tc main_arg1) = x1
    ∧ after opsE W (Proc.devRef .tc main_arg2) = x2
    ∧ after opsE W (Proc.devRef .tc main_arg3) = x3
    ∧ after opsE W (Proc.devRef .tc main_v4) = val_main_v4 x0 x1 := by
  refine ⟨?_, ?_, ?_, ?_, ?_⟩
  · unfold opsE; after_results_simp; exact a0
  · unfold opsE; after_results_simp; exact a1
  · unfold opsE; after_results_simp; exact a2
  · unfold opsE; after_results_simp; exact a3
  · unfold opsE; after_results_simp
    (try rw [a0]); (try rw [a1]); (try rw [a2]); (try rw [a3]); (try rw [h_v0]); (try rw [h_call1_v5]); (try rw [h_call1_v12])
    try simp only [ofBuf_toBuf]
    try simp only [toBuf_main_v0, ofBuf_main_v0, toBuf_main_call1_v5, ofBuf_main_call1_v5, toBuf_main_call1_v13, ofBuf_main_call1_v13, toBuf_main_call1_cst, ofBuf_main_call1_cst, toBuf_main_call1_v14, ofBuf_main_call1_v14, toBuf_main_call1_v12, ofBuf_main_call1_v12, toBuf_main_v2, ofBuf_main_v2]
    unfold val_main_v4 val_main_v3 val_main_v2 val_main_call1_v14 val_main_call1_cst val_main_call1_v13
    rfl

/-- Operations 41 to 47 of the line. -/
def opsF : List (HloOp τ sig (Elt F)) :=
  [ nullary main_c (constantI S_ 32 0#32),
    unary main_c main_v5 (broadcastInDim S8192 ![] bcast_S_S8192 : (⟨S_, .i32⟩ : BufTy).Contents (Elt F) → (⟨S8192, .i32⟩ : BufTy).Contents (Elt F)),
    binary main_arg2 main_v5 main_v6 (cmpi .slt : (⟨S8192, .i32⟩ : BufTy).Contents (Elt F) → (⟨S8192, .i32⟩ : BufTy).Contents (Elt F) → (⟨S8192, .i1⟩ : BufTy).Contents (Elt F)),
    nullary main_c_0 (constantI S_ 32 100#32),
    unary main_c_0 main_v7 (broadcastInDim S8192 ![] bcast_S_S8192 : (⟨S_, .i32⟩ : BufTy).Contents (Elt F) → (⟨S8192, .i32⟩ : BufTy).Contents (Elt F)),
    binary main_arg2 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_arg2 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]

set_option maxRecDepth 8192 in
/-- Over any contents `W` that hold the arguments and the stages still to be read, operations 41 to 47 leave them as they were
    and write `main_v9` at its stage `val_main_v9`. -/
theorem stF (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v4 : W (Proc.devRef .tc main_v4) = val_main_v4 x0 x1) :
    after opsF W (Proc.devRef .tc main_arg0) = x0
    ∧ after opsF W (Proc.devRef .tc main_arg1) = x1
    ∧ after opsF W (Proc.devRef .tc main_arg2) = x2
    ∧ after opsF W (Proc.devRef .tc main_arg3) = x3
    ∧ after opsF W (Proc.devRef .tc main_v4) = val_main_v4 x0 x1
    ∧ after opsF W (Proc.devRef .tc main_v9) = val_main_v9 x2 := by
  refine ⟨?_, ?_, ?_, ?_, ?_, ?_⟩
  · unfold opsF; after_results_simp; exact a0
  · unfold opsF; after_results_simp; exact a1
  · unfold opsF; after_results_simp; exact a2
  · unfold opsF; after_results_simp; exact a3
  · unfold opsF; after_results_simp; exact h_v4
  · unfold opsF; after_results_simp
    (try rw [a0]); (try rw [a1]); (try rw [a2]); (try rw [a3]); (try rw [h_v4])
    unfold val_main_v9 val_main_v8 val_main_v7 val_main_c_0 val_main_v6 val_main_v5 val_main_c
    rfl

/-- Operations 48 to 57 of the line. -/
def opsG : List (HloOp τ sig (Elt F)) :=
  [ nullary main_c_1 (constantI S_ 32 0#32),
    unary main_c_1 main_v10 (broadcastInDim S8192 ![] bcast_S_S8192 : (⟨S_, .i32⟩ : BufTy).Contents (Elt F) → (⟨S8192, .i32⟩ : BufTy).Contents (Elt F)),
    binary main_arg1 main_v10 main_v11 (cmpi .slt : (⟨S8192, .i32⟩ : BufTy).Contents (Elt F) → (⟨S8192, .i32⟩ : BufTy).Contents (Elt F) → (⟨S8192, .i1⟩ : BufTy).Contents (Elt F)),
    nullary main_c_2 (constantI S_ 32 32000#32),
    unary main_c_2 main_v12 (broadcastInDim S8192 ![] bcast_S_S8192 : (⟨S_, .i32⟩ : BufTy).Contents (Elt F) → (⟨S8192, .i32⟩ : BufTy).Contents (Elt F)),
    binary main_arg1 main_v12 main_v13 (addi : (⟨S8192, .i32⟩ : BufTy).Contents (Elt F) → (⟨S8192, .i32⟩ : BufTy).Contents (Elt F) → (⟨S8192, .i32⟩ : BufTy).Contents (Elt F)),
    ternary main_v11 main_v13 main_arg1 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v15 (broadcastInDim S8192x1 ![0] bcast_S8192_S8192x1_0 : (⟨S8192, .i32⟩ : BufTy).Contents (Elt F) → (⟨S8192x1, .i32⟩ : BufTy).Contents (Elt F)),
    unary main_v14 main_v16 (broadcastInDim S8192x1 ![0] bcast_S8192_S8192x1_0 : (⟨S8192, .i32⟩ : BufTy).Contents (Elt F) → (⟨S8192x1, .i32⟩ : BufTy).Contents (Elt F)),
    binary main_v15 main_v16 main_v17 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

set_option maxRecDepth 8192 in
/-- Over any contents `W` that hold the arguments and the stages still to be read, operations 48 to 57 leave them as they were
    and write `main_v17` at its stage `val_main_v17`. -/
theorem stG (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v4 : W (Proc.devRef .tc main_v4) = val_main_v4 x0 x1)
    (h_v9 : W (Proc.devRef .tc main_v9) = val_main_v9 x2) :
    after opsG W (Proc.devRef .tc main_arg0) = x0
    ∧ after opsG W (Proc.devRef .tc main_arg1) = x1
    ∧ after opsG W (Proc.devRef .tc main_arg2) = x2
    ∧ after opsG W (Proc.devRef .tc main_arg3) = x3
    ∧ after opsG W (Proc.devRef .tc main_v4) = val_main_v4 x0 x1
    ∧ after opsG W (Proc.devRef .tc main_v17) = val_main_v17 x1 x2 := by
  refine ⟨?_, ?_, ?_, ?_, ?_, ?_⟩
  · unfold opsG; after_results_simp; exact a0
  · unfold opsG; after_results_simp; exact a1
  · unfold opsG; after_results_simp; exact a2
  · unfold opsG; after_results_simp; exact a3
  · unfold opsG; after_results_simp; exact h_v4
  · unfold opsG; after_results
    (try rw [a0]); (try rw [a1]); (try rw [a2]); (try rw [a3]); (try rw [h_v4]); (try rw [h_v9])
    unfold val_main_v17 val_main_v16 val_main_v15 val_main_v14 val_main_v13 val_main_v12 val_main_c_2 val_main_v11 val_main_v10 val_main_c_1
    rfl

/-- Operations 58 to 63 of the line. -/
def opsH : List (HloOp τ sig (Elt F)) :=
  [ binary main_arg3 main_v17 main_v18 ((fun x i => Host.gather gather_S100x32000_S8192x2_S8192_n_01_n_n_01_1_11 x i) : (⟨S100x32000, .f32⟩ : BufTy).Contents (Elt F) → (⟨S8192x2, .i32⟩ : BufTy).Contents (Elt F) → (⟨S8192, .f32⟩ : BufTy).Contents (Elt F)),
    binary main_v4 main_v18 main_v19 (mulf : (⟨S8192, .f32⟩ : BufTy).Contents (Elt F) → (⟨S8192, .f32⟩ : BufTy).Contents (Elt F) → (⟨S8192, .f32⟩ : BufTy).Contents (Elt F)),
    nullary main_cst (constant S_ .f32 0x00000000#32),
    binary main_v19 main_cst main_v20 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_3 (constant S_ .f32 0x46000000#32),
    binary main_v20 main_cst_3 main_v21 (Host.divf : (⟨S_, .f32⟩ : BufTy).Contents (Elt F) → (⟨S_, .f32⟩ : BufTy).Contents (Elt F) → (⟨S_, .f32⟩ : BufTy).Contents (Elt F)) ]

set_option maxRecDepth 8192 in
/-- Over any contents `W` that hold the arguments and the stages still to be read, operations 58 to 63 leave them as they were
    and write `main_v21` at its stage `val_main_v21`. -/
theorem stH (W : Valuation τ sig (Elt F))
    (x0 : (⟨S8192x32000, .f32⟩ : BufTy).Contents (Elt F))
    (x1 : (⟨S8192, .i32⟩ : BufTy).Contents (Elt F))
    (x2 : (⟨S8192, .i32⟩ : BufTy).Contents (Elt F))
    (x3 : (⟨S100x32000, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (h_v4 : W (Proc.devRef .tc main_v4) = val_main_v4 x0 x1)
    (h_v17 : W (Proc.devRef .tc main_v17) = val_main_v17 x1 x2) :
    after opsH W (Proc.devRef .tc main_arg0) = x0
    ∧ after opsH W (Proc.devRef .tc main_arg1) = x1
    ∧ after opsH W (Proc.devRef .tc main_arg2) = x2
    ∧ after opsH W (Proc.devRef .tc main_arg3) = x3
    ∧ after opsH W (Proc.devRef .tc main_v21) = val_main_v21 x0 x1 x2 x3 := by
  refine ⟨?_, ?_, ?_, ?_, ?_⟩
  · unfold opsH; after_results_simp; exact a0
  · unfold opsH; after_results_simp; exact a1
  · unfold opsH; after_results_simp; exact a2
  · unfold opsH; after_results_simp; exact a3
  · unfold opsH; after_results_simp
    (try rw [a0]); (try rw [a1]); (try rw [a2]); (try rw [a3]); (try rw [h_v4]); (try rw [h_v17])
    unfold val_main_v21 val_main_cst_3 val_main_v20 val_main_cst val_main_v19 val_main_v18
    rfl

/-- The line is its eight stretches in a row. -/
theorem ops_split : (ops : List (HloOp τ sig (Elt F))) = opsA ++ (opsB ++ (opsC ++ (opsD ++ (opsE ++ (opsF ++ (opsG ++ (opsH))))))) := rfl

/-- From any contents `V`, the whole line leaves `main_v21` at its stage `val_main_v21` of the four arguments' contents
    and the four arguments as they were: the stretches one after the other, each read over what the one before left. -/
theorem after_ops (V : Valuation τ sig (Elt F)) :
    after ops V (Proc.devRef .tc main_v21) = val_main_v21 (V (Proc.devRef .tc main_arg0)) (V (Proc.devRef .tc main_arg1)) (V (Proc.devRef .tc main_arg2)) (V (Proc.devRef .tc main_arg3))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  rw [ops_split]
  simp only [StableHlo.after_append]
  obtain ⟨a_a0, a_a1, a_a2, a_a3, a_call0_v4⟩ := stA V (V (Proc.devRef .tc main_arg0)) (V (Proc.devRef .tc main_arg1)) (V (Proc.devRef .tc main_arg2)) (V (Proc.devRef .tc main_arg3)) rfl rfl rfl rfl
  obtain ⟨b_a0, b_a1, b_a2, b_a3, b_v0⟩ := stB (after opsA (V)) _ _ _ _ a_a0 a_a1 a_a2 a_a3 a_call0_v4
  obtain ⟨c_a0, c_a1, c_a2, c_a3, c_v0, c_call1_v5⟩ := stC (after opsB (after opsA (V))) _ _ _ _ b_a0 b_a1 b_a2 b_a3 b_v0
  obtain ⟨d_a0, d_a1, d_a2, d_a3, d_v0, d_call1_v5, d_call1_v12⟩ := stD (after opsC (after opsB (after opsA (V)))) _ _ _ _ c_a0 c_a1 c_a2 c_a3 c_v0 c_call1_v5
  obtain ⟨e_a0, e_a1, e_a2, e_a3, e_v4⟩ := stE (after opsD (after opsC (after opsB (after opsA (V))))) _ _ _ _ d_a0 d_a1 d_a2 d_a3 d_v0 d_call1_v5 d_call1_v12
  obtain ⟨f_a0, f_a1, f_a2, f_a3, f_v4, f_v9⟩ := stF (after opsE (after opsD (after opsC (after opsB (after opsA (V)))))) _ _ _ _ e_a0 e_a1 e_a2 e_a3 e_v4
  obtain ⟨g_a0, g_a1, g_a2, g_a3, g_v4, g_v17⟩ := stG (after opsF (after opsE (after opsD (after opsC (after opsB (after opsA (V))))))) _ _ _ _ f_a0 f_a1 f_a2 f_a3 f_v4 f_v9
  obtain ⟨h_a0, h_a1, h_a2, h_a3, h_v21⟩ := stH (after opsG (after opsF (after opsE (after opsD (after opsC (after opsB (after opsA (V)))))))) _ _ _ _ g_a0 g_a1 g_a2 g_a3 g_v4 g_v17
  exact ⟨h_v21, h_a0, h_a1, h_a2, h_a3⟩

/-- On every device, for any float values, from any memory with zero counters: every weakly fair execution of @main
    terminates with the result buffer at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = Cert.ReferenceIdeal.ReadP.val_main_v21 (F := F) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      have H := after_ops (F := F) (launchContents m c)
      ⟨(h c main_v21).trans H.1, (h c main_arg0).trans H.2.1, (h c main_arg1).trans H.2.2.1,
        (h c main_arg2).trans H.2.2.2.1, (h c main_arg3).trans H.2.2.2.2⟩)
    (run_seq scopedRefs_eq scopedSems_eq defs main (fun _ => ops) main_eq (fun _ => ops_sub) m ρ)

end Cert.ReferenceIdeal.RunP

end
-- ==== Proof.RefValue.lean ====
/-
  The reference's log-softmax, read at an index.

  The reference computes, for each row of the logits, the maximum `M` (from -∞), the entries less `M`, the sum of
  their exponentials (from zero), and subtracts the logarithm of that sum: `(x - M) - log Σ exp (x - M)`. Under the
  finiteness precondition every entry is a real, so `M` is a real (a maximum of 32000 reals), and the value at (i, j)
  is the entry less the log-sum-exp of row i: the shift `M` cancels.
-/
import proofs.«406159_j25486335934803_3_alg».proof.Proof.RefRead
import proofs.«406159_j25486335934803_3_alg».proof.Proof.LseRows
import proofs.«406159_j25486335934803_3_alg».proof.Proof.LibReal
import Idealize.ShloMosaic.PureOps.Reduce
import Idealize.ShloMosaic.PureOps.Ideal.Laws

noncomputable section

open scoped BigOperators
open Idealize.ShloMosaic Idealize.ShloMosaic.ValueIdx

namespace Cert.ReferenceIdeal.LseRef

open Cert.ReferenceIdeal Cert.ReferenceIdeal.Gen Cert.ReferenceIdeal.ReadP Cert.Lse Cert.LibReal

/-- The reference's row maximum is a real. -/
theorem rowMax_real (x0 : (⟨S8192x32000, .f32⟩ : BufTy).Contents (Elt Ideal)) (hX : ∀ p, ∃ r : ℝ, x0 p = (r : EReal))
    (i : S8192.Idx) : ∃ M : ℝ, val_main_call0_v2 (F := Ideal) x0 i = (M : EReal) := by
  rw [val_main_call0_v2_apply, val_main_call0_v1_apply, val_main_call0_cst_0_apply]
  unfold val_main_call0_v0
  have h := Host.reduce_eq_fold_single (FloatOps.maximumf (F := Ideal) (φ := .f32)) x0 (val_main_call0_cst (F := Ideal))
    Gen.reducesTo_S8192x32000_S8192_d1 (by decide) Gen.h_S_ i
  rw [h, val_main_call0_cst_apply]
  have hb : (FloatOps.ofBits (F := Ideal) .f32 0xFF800000#32 : Ideal .f32) = (⊥ : EReal) := ofBits_negInf_f32
  rw [hb]
  have hf : (x0 ∘ (by decide : S8192x32000.Reduces [1] S8192).lift i)
      = fun k => ((ent x0 (i 0).val k.val : ℝ) : EReal) :=
    funext fun k => ent_eq_idx x0 hX _
  rw [hf]
  obtain ⟨r, hr⟩ := fold_real (FloatOps.maximumf (F := Ideal) (φ := .f32)) (fun _ _ => rfl)
    (Finset.univ : Finset (Fin (S8192x32000.size 1))) ⟨⟨0, by decide⟩, Finset.mem_univ _⟩
    (fun k => ent x0 (i 0).val k.val)
  rw [hr]
  exact ⟨r, max_eq_right bot_le⟩

/-- THE LOG-SOFTMAX AT AN INDEX: the entry less the log-sum-exp of its row. -/
theorem logp_apply (x0 : (⟨S8192x32000, .f32⟩ : BufTy).Contents (Elt Ideal)) (hX : ∀ p, ∃ r : ℝ, x0 p = (r : EReal))
    (p : S8192x32000.Idx) :
    val_main_v0 (F := Ideal) x0 p = ((ent x0 (p 0).val (p 1).val - rowLse x0 (p 0).val : ℝ) : EReal) := by
  obtain ⟨M, hM⟩ := rowMax_real x0 hX (idx_main_call0_v3 (idx_main_call0_v4 p))
  have h5 : ∀ q : S8192x32000.Idx, (q 0).val = (p 0).val →
      val_main_call0_v5 (F := Ideal) x0 q = ((ent x0 (p 0).val (q 1).val : ℝ) : EReal) - (M : EReal) := by
    intro q hq
    rw [val_main_call0_v5_apply, val_main_call0_v4_apply, val_main_call0_v3_apply]
    have hrow : idx_main_call0_v3 (idx_main_call0_v4 q) = idx_main_call0_v3 (idx_main_call0_v4 p) :=
      funext fun a => Fin.ext (by match a with | ⟨0, _⟩ => exact hq)
    rw [hrow, hM, ent_eq_idx x0 hX q, hq]
    rfl
  have hsum : ∀ k : Fin 32000,
      val_main_call0_v6 (F := Ideal) x0 (idx_main_call0_v7 (idx_main_call0_v8 (idx_main_call0_v10 p)) k)
        = Ideal.exp (((ent x0 (p 0).val k.val : ℝ) : EReal) - (M : EReal)) := by
    intro k
    rw [val_main_call0_v6_apply, h5 (idx_main_call0_v7 (idx_main_call0_v8 (idx_main_call0_v10 p)) k) rfl]
    rfl
  have hlog : val_main_call0_v10 (F := Ideal) x0 p
      = Ideal.log ((0 : EReal) + ∑ k : Fin 32000, Ideal.exp (((ent x0 (p 0).val k.val : ℝ) : EReal) - (M : EReal))) := by
    rw [val_main_call0_v10_apply, val_main_call0_v9_apply, val_main_call0_v8_apply, val_main_call0_v7_apply,
      val_main_call0_cst_1_apply]
    have hs : (∑ k : Fin 32000, val_main_call0_v6 (F := Ideal) x0
          (idx_main_call0_v7 (idx_main_call0_v8 (idx_main_call0_v10 p)) k))
        = ∑ k : Fin 32000, Ideal.exp (((ent x0 (p 0).val k.val : ℝ) : EReal) - (M : EReal)) :=
      Finset.sum_congr rfl fun k _ => hsum k
    rw [hs, Ideal.hostUnary_log_def, Ideal.ofBits_def, Ideal.ofBits_zero_f32]
  rw [val_main_v0_apply, h5 p rfl, hlog, rowLse_eq_lse]
  exact shifted_sub_log (n := 32000) (by norm_num) (fun k => ent x0 (p 0).val k.val) M (ent x0 (p 0).val (p 1).val)

end Cert.ReferenceIdeal.LseRef

end
-- ==== Proof.CeBridge.lean ====
/-
  The two weighted vectors are one vector.

  Row i of the kernel's vector is `L i - s i`, where `L i` is the row's log-sum-exp and `s i` is the logit at the row's
  wrapped target if that target is in range and the not-a-number pattern otherwise; row i of the reference's vector is
  `-(s' i)` with the log-softmax in place of the logit. The gather reads its operand at an index that depends only on
  the targets, and whose row coordinate is the row i itself, so in range `s' i = x - L i` where `s i = x`, and
  `L i - x = -(x - L i)` over the reals. Out of range both `s i` and `s' i` are the not-a-number pattern, which denotes
  the bottom element ⊥, and `L i - ⊥ = ⊤ = -⊥` because `L i` is a real.
-/
import proofs.«406159_j25486335934803_3_alg».proof.Proof.TailShared
import proofs.«406159_j25486335934803_3_alg».proof.Proof.RefValue
import Idealize.ShloMosaic.Lib.ValueIdx
import Idealize.ShloMosaic.Lib.Pipeline.Value

noncomputable section

namespace Cert.Tail

open Idealize.ShloMosaic Idealize.ShloMosaic.ValueIdx Cert.ReferenceIdeal Cert.ReferenceIdeal.Gen Cert.ReferenceIdeal.ReadP
open Cert.Lse Cert.LibReal Cert.ReferenceIdeal.LseRef

/-- The not-a-number pattern denotes the bottom element. -/
theorem ofBits_nan_f32 : Ideal.ofBits .f32 0x7FC00000#32 = ⊥ := by simp [Ideal.ofBits, Ideal.ieee]

/-- A column of 8192 rows flattened reads, at i, the column at (i, 0). -/
theorem flat_apply {α : Type} (y : S8192x1.Idx → α) (i : S8192.Idx) :
    shapeCast S8192 y Gen.shapeCasts_S8192x1_S8192 i = y (idx_main_v3 i) :=
  shapeCast_apply y Gen.shapeCasts_S8192x1_S8192 i (idx_main_v3 i) (by
    rewrite [Shape.rowMajor_val_two, Shape.rowMajor_val_one]
    have h0 : (i 0).val < 8192 := (i 0).isLt
    show ((i 0).val) / 1 * 1 + 0 = (i 0).val
    omega)

/-- The batched gather reads row j₀ of its operand at result row j₀. -/
theorem gather_row {w : ℕ} (j : S8192x1.Idx) (I : IVec S8192x1x1 w) :
    ((gather_S8192x32000_S8192x1x1_S8192x1_n_1_0_0_1_2_11.operandIdx j I) 0).val = (j 0).val := by
  have hb : (0 : Fin S8192x32000.rank) ∈ gather_S8192x32000_S8192x1x1_S8192x1_n_1_0_0_1_2_11.operandBatchingDims :=
    List.mem_singleton.mpr rfl
  show gather_S8192x32000_S8192x1x1_S8192x1_n_1_0_0_1_2_11.start j I 0
      + gather_S8192x32000_S8192x1x1_S8192x1_n_1_0_0_1_2_11.batchCoord j 0
      + gather_S8192x32000_S8192x1x1_S8192x1_n_1_0_0_1_2_11.offCoord j 0 = (j 0).val
  rw [GatherDims.start_batching _ j I 0 hb,
    GatherDims.offCoord_eq_zero _ j 0 (fun h => ((GatherDims.mem_sKept _ 0).1 h).2 hb), Nat.zero_add, Nat.add_zero]
  unfold GatherDims.batchCoord
  rw [dif_pos hb]
  rfl

/-- THE LANES AGREE. -/
theorem ce_eq (x0 : (⟨S8192x32000, .f32⟩ : BufTy).Contents (Elt Ideal)) (hX : ∀ p, ∃ r : ℝ, x0 p = (r : EReal))
    (x1 : (⟨S8192, .i32⟩ : BufTy).Contents (Elt Ideal)) (A : (⟨S8192x1, .f32⟩ : BufTy).Contents (Elt Ideal))
    (hA : ∀ q : S8192x1.Idx, A q = ((rowLse x0 (q 0).val : ℝ) : EReal)) :
    subf (shapeCast S8192 A Gen.shapeCasts_S8192x1_S8192) (pick x0 x1)
      = Host.negf (pick (val_main_v0 (F := Ideal) x0) x1) := by
  funext i
  show shapeCast S8192 A Gen.shapeCasts_S8192x1_S8192 i - pick x0 x1 i = -(pick (val_main_v0 (F := Ideal) x0) x1 i)
  unfold pick
  rw [flat_apply, flat_apply, flat_apply, select_apply, select_apply, val_main_call1_v14_apply, val_main_call1_cst_apply,
    Ideal.ofBits_def, ofBits_nan_f32, hA]
  show _ - Scalar.select _ (x0 _) ⊥ = -(Scalar.select _ (val_main_v0 (F := Ideal) x0 _) ⊥)
  rw [logp_apply x0 hX, ent_eq_idx x0 hX, gather_row]
  by_cases hb : val_main_call1_v12 (F := Ideal) x1 (idx_main_v3 i) = 1#1
  · rw [hb, select_one, select_one, ← EReal.coe_sub, ← EReal.coe_neg, neg_sub]
  · rw [eq_zero_of_ne_one hb, select_zero, select_zero, EReal.coe_sub_bot, EReal.neg_bot]

end Cert.Tail

end
-- ==== Proof.lean ====
/-
  The proof of `Cert.Claim`: a streamed log-sum-exp cross entropy against jax's log-softmax.

  The kernel streams each row of the 8192 × 32000 logits through five tiles of 6400 entries, keeping a shift `m`
  (started at a large negative number) and a sum `l` of exponentials relative to the shift, and writes `m + log l` per
  row; outside the kernel the program subtracts the logit at the row's target, weights by a table entry and takes the
  mean. The reference takes the log-softmax with the row's maximum as the shift, picks the entry at the target, negates,
  weights and takes the mean.

  Over the reals `l * exp m` is the sum of the exponentials of the entries seen so far whatever the shift, so
  `m + log l` is the row's log-sum-exp `L` for every real starting shift, and the reference's
  `(x - M) - log Σ exp (x - M)` is `x - L`. The finiteness precondition is what makes every entry, every shift and every
  sum a real. A target out of range makes both programs pick the not-a-number pattern, which denotes the bottom element:
  `L - ⊥ = ⊤ = -⊥`. So the two weighted vectors agree lane by lane, and the weighting and the mean are one function.

  The three frames: the two kernel programs' are the generated frames; the reference's is its run with the result
  dropped. The idealization rewrote nothing, so `preserves` is trivial.
-/
import proofs.«406159_j25486335934803_3_alg».proof.Defs
import proofs.«406159_j25486335934803_3_alg».proof.Proof.Gen.Kernel
import proofs.«406159_j25486335934803_3_alg».proof.Proof.Gen.Kernel.Frame
import proofs.«406159_j25486335934803_3_alg».proof.Proof.Gen.KernelIdeal
import proofs.«406159_j25486335934803_3_alg».proof.Proof.Gen.KernelIdeal.Frame
import proofs.«406159_j25486335934803_3_alg».proof.Proof.Gen.ReferenceIdeal
import proofs.«406159_j25486335934803_3_alg».proof.Proof.Gen.Pre_finite_inputs
import proofs.«406159_j25486335934803_3_alg».proof.Proof.Finite
import proofs.«406159_j25486335934803_3_alg».proof.Proof.KernelRun
import proofs.«406159_j25486335934803_3_alg».proof.Proof.RefRun
import proofs.«406159_j25486335934803_3_alg».proof.Proof.CeBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- At the extended reals both programs end at the weighted mean of one vector (`Cert.Tail.ce_eq`). -/
theorem algebraic : Cert.algebraic_KernelIdeal_ReferenceIdeal := by
  intro m ρ m' ρ' hpre hagree
  have hX : ∀ c p, ∃ r : ℝ, Cert.KernelIdeal.LseValue.logits m c p = (r : EReal) :=
    fun c p => Cert.Finite.logits_real _ _ _ _ (hpre c) p
  refine ⟨fun c => Cert.KernelIdeal.LseRun.result m c, Cert.KernelIdeal.LseRun.run m ρ hX, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2, Cert.Tail.ref_eq]
  unfold Cert.KernelIdeal.LseRun.result
  exact congrArg (fun ce => Cert.Tail.tailFn ce _ _ _)
    (Cert.Tail.ce_eq _ (hX c) _ _ (fun q => rfl)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
